-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S64 .f32) (main_arg7 : FVec F S64x32 .f32) (main_arg8 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x32 .f32) (main_arg8 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x32 : Shape := ⟨2, ![100000, 32]⟩
abbrev S10000x32 : Shape := ⟨2, ![10000, 32]⟩
abbrev S3300000x32 : Shape := ⟨2, ![3300000, 32]⟩
abbrev S1x32 : Shape := ⟨2, ![1, 32]⟩
abbrev S100000x1 : Shape := ⟨2, ![100000, 1]⟩
abbrev S256x32 : Shape := ⟨2, ![256, 32]⟩
abbrev S10000x1 : Shape := ⟨2, ![10000, 1]⟩
abbrev S10000x256 : Shape := ⟨2, ![10000, 256]⟩
abbrev S256 : Shape := ⟨1, ![256]⟩
abbrev S256x1 : Shape := ⟨2, ![256, 1]⟩

abbrev nBuf : Space → Nat
  | .hbm => 116
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x64, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x64, .f32⟩
  | .hbm, ⟨55, _⟩ => ⟨S3300000x1, .f32⟩
  | .hbm, ⟨56, _⟩ => ⟨S3300000x64, .f32⟩
  | .hbm, ⟨57, _⟩ => ⟨S3300000x64, .f32⟩
  | .hbm, ⟨58, _⟩ => ⟨S_, .f32⟩
  | .hbm, ⟨59, _⟩ => ⟨S100000x64, .f32⟩
  | .hbm, ⟨60, _⟩ => ⟨S3300000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x64, .f32⟩
  | .hbm, ⟨74, _⟩ => ⟨S3300000x1, .f32⟩
  | .hbm, ⟨75, _⟩ => ⟨S3300000x64, .f32⟩
  | .hbm, ⟨76, _⟩ => ⟨S3300000x64, .f32⟩
  | .hbm, ⟨77, _⟩ => ⟨S_, .f32⟩
  | .hbm, ⟨78, _⟩ => ⟨S100000x64, .f32⟩
  | .hbm, ⟨79, _⟩ => ⟨S3300000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x32, .f32⟩
  | .hbm, ⟨84, _⟩ => ⟨S_, .i32⟩
  | .hbm, ⟨85, _⟩ => ⟨S3300000, .i32⟩
  | .hbm, ⟨86, _⟩ => ⟨S3300000, .i1⟩
  | .hbm, ⟨87, _⟩ => ⟨S_, .i32⟩
  | .hbm, ⟨88, _⟩ => ⟨S3300000, .i32⟩
  | .hbm, ⟨89, _⟩ => ⟨S3300000, .i32⟩
  | .hbm, ⟨90, _⟩ => ⟨S3300000, .i32⟩
  | .hbm, ⟨91, _⟩ => ⟨S3300000x1, .i32⟩
  | .hbm, ⟨92, _⟩ => ⟨S3300000x32, .f32⟩
  | .hbm, ⟨93, _⟩ => ⟨S3300000x1, .f32⟩
  | .hbm, ⟨94, _⟩ => ⟨S3300000x32, .f32⟩
  | .hbm, ⟨95, _⟩ => ⟨S3300000x32, .f32⟩
  | .hbm, ⟨96, _⟩ => ⟨S_, .f32⟩
  | .hbm, ⟨97, _⟩ => ⟨S100000x32, .f32⟩
  | .hbm, ⟨98, _⟩ => ⟨S3300000x1, .i32⟩
  | .hbm, ⟨99, _⟩ => ⟨S100000x32, .f32⟩
  | .hbm, ⟨100, _⟩ => ⟨S1x32, .f32⟩
  | .hbm, ⟨101, _⟩ => ⟨S100000x32, .f32⟩
  | .hbm, ⟨102, _⟩ => ⟨S100000x1, .i32⟩
  | .hbm, ⟨103, _⟩ => ⟨S256x32, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S256, .f32⟩
  | .hbm, ⟨108, _⟩ => ⟨S100000x1, .i32⟩
  | .hbm, ⟨109, _⟩ => ⟨S256, .f32⟩
  | .hbm, ⟨110, _⟩ => ⟨S_, .f32⟩
  | .hbm, ⟨111, _⟩ => ⟨S256, .f32⟩
  | .hbm, ⟨112, _⟩ => ⟨S256, .f32⟩
  | .hbm, ⟨113, _⟩ => ⟨S256x1, .f32⟩
  | .hbm, ⟨114, _⟩ => ⟨S256x32, .f32⟩
  | .hbm, ⟨115, _⟩ => ⟨S256x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S1x32, .f32⟩
  | .local _ .vmem, ⟨28, _⟩ => ⟨S10000x32, .f32⟩
  | .local _ .vmem, ⟨29, _⟩ => ⟨S10000x32, .f32⟩
  | .local _ .vmem, ⟨30, _⟩ => ⟨S10000x32, .f32⟩
  | .local _ .vmem, ⟨31, _⟩ => ⟨S10000x32, .f32⟩
  | .local _ .vmem, ⟨32, _⟩ => ⟨S10000x1, .i32⟩
  | .local _ .vmem, ⟨33, _⟩ => ⟨S10000x1, .i32⟩
  | .local _ .vmem, ⟨34, _⟩ => ⟨S256x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_11 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  shapeCasts_S10000x32_S10000x32 : S10000x32.ShapeCasts S10000x32
  shapeCasts_S100000_S100000x1 : S100000.ShapeCasts S100000x1
  inb_S256x32_S256x32_0_0 : ∀ a, (![0, 0] : Fin 2 → Nat) a + S256x32.size a ≤ S256x32.size a
  h_S256x32 : 0 < S256x32.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x256_d1_w32 : S10000x256.Iotas .tc 32 [1]
  broadcasts_S10000x1_S10000x256 : S10000x1.Broadcasts S10000x256
  natLt_1_32 : 1 < 32
  shapeCasts_S256x32_S256x32 : S256x32.ShapeCasts S256x32
  bcast_S_S256 : S_.BroadcastsInDim S256 (![] : Fin 0 → Fin S256.rank)
  bcast_S100000_S100000x1_0 : S100000.BroadcastsInDim S100000x1 (![0] : Fin 1 → Fin S100000x1.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x256_S10000x32_S256x32_0_0_1_1_n_n_wf : DotDims.WF S10000x256 S10000x32 S256x32 [0] [0] [1] [1] [] []
  scatter_S256_S100000x1_S100000_n_0_0_1_wf : ScatterDims.WF S256 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S100000x32.size a
  hwx4_2 : ∀ i : grid4.Coords, EltTy.bits .f32 = 32 ∨ (Rect.block (s := S100000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x32.size a ≤ S100000x32.size a
  hwx5_2 : ∀ i : grid5.Coords, EltTy.bits .f32 = 32 ∨ (Rect.block (s := S100000x32) S10000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S100000x1.size a
  hwx6_1 : ∀ i : grid6.Coords, EltTy.bits .i32 = 32 ∨ (Rect.block (s := S100000x1) S10000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x32.size a ≤ S256x32.size a
  hwx6_2 : ∀ i : grid6.Coords, EltTy.bits .f32 = 32 ∨ (Rect.block (s := S256x32) S256x32.size (cc6_transform_2 i) (hinb6_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x256_S10000x32_S256x32_0_0_1_1_n_n : DotDims S10000x256 S10000x32 S256x32 where
  lhsContracting := [0]
  rhsContracting := [0]
  lhsNonContracting := [1]
  rhsNonContracting := [1]
  lhsBatch := []
  rhsBatch := []
  wf := dot_S10000x256_S10000x32_S256x32_0_0_1_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S10000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v78) S256x32.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S256x32 : Shape := ⟨2, ![256, 32]⟩
abbrev S100000x1 : Shape := ⟨2, ![100000, 1]⟩
abbrev S256 : Shape := ⟨1, ![256]⟩
abbrev S256x1 : Shape := ⟨2, ![256, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x64, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x64, .f32⟩
  | .hbm, ⟨55, _⟩ => ⟨S3300000x1, .f32⟩
  | .hbm, ⟨56, _⟩ => ⟨S3300000x64, .f32⟩
  | .hbm, ⟨57, _⟩ => ⟨S3300000x64, .f32⟩
  | .hbm, ⟨58, _⟩ => ⟨S_, .f32⟩
  | .hbm, ⟨59, _⟩ => ⟨S100000x64, .f32⟩
  | .hbm, ⟨60, _⟩ => ⟨S3300000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x64, .f32⟩
  | .hbm, ⟨78, _⟩ => ⟨S3300000x1, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x32, .f32⟩
  | .hbm, ⟨92, _⟩ => ⟨S_, .i32⟩
  | .hbm, ⟨93, _⟩ => ⟨S3300000, .i32⟩
  | .hbm, ⟨94, _⟩ => ⟨S3300000, .i1⟩
  | .hbm, ⟨95, _⟩ => ⟨S_, .i32⟩
  | .hbm, ⟨96, _⟩ => ⟨S3300000, .i32⟩
  | .hbm, ⟨97, _⟩ => ⟨S3300000, .i32⟩
  | .hbm, ⟨98, _⟩ => ⟨S3300000, .i32⟩
  | .hbm, ⟨99, _⟩ => ⟨S3300000x1, .i32⟩
  | .hbm, ⟨100, _⟩ => ⟨S3300000x32, .f32⟩
  | .hbm, ⟨101, _⟩ => ⟨S3300000x1, .f32⟩
  | .hbm, ⟨102, _⟩ => ⟨S3300000x32, .f32⟩
  | .hbm, ⟨103, _⟩ => ⟨S3300000x32, .f32⟩
  | .hbm, ⟨104, _⟩ => ⟨S_, .f32⟩
  | .hbm, ⟨105, _⟩ => ⟨S100000x32, .f32⟩
  | .hbm, ⟨106, _⟩ => ⟨S3300000x1, .i32⟩
  | .hbm, ⟨107, _⟩ => ⟨S100000x32, .f32⟩
  | .hbm, ⟨108, _⟩ => ⟨S1x32, .f32⟩
  | .hbm, ⟨109, _⟩ => ⟨S100000x32, .f32⟩
  | .hbm, ⟨110, _⟩ => ⟨S100000x32, .f32⟩
  | .hbm, ⟨111, _⟩ => ⟨S_, .f32⟩
  | .hbm, ⟨112, _⟩ => ⟨S256x32, .f32⟩
  | .hbm, ⟨113, _⟩ => ⟨S100000x1, .i32⟩
  | .hbm, ⟨114, _⟩ => ⟨S256x32, .f32⟩
  | .hbm, ⟨115, _⟩ => ⟨S_, .f32⟩
  | .hbm, ⟨116, _⟩ => ⟨S100000, .f32⟩
  | .hbm, ⟨117, _⟩ => ⟨S_, .f32⟩
  | .hbm, ⟨118, _⟩ => ⟨S256, .f32⟩
  | .hbm, ⟨119, _⟩ => ⟨S100000x1, .i32⟩
  | .hbm, ⟨120, _⟩ => ⟨S256, .f32⟩
  | .hbm, ⟨121, _⟩ => ⟨S_, .f32⟩
  | .hbm, ⟨122, _⟩ => ⟨S256, .f32⟩
  | .hbm, ⟨123, _⟩ => ⟨S256, .f32⟩
  | .hbm, ⟨124, _⟩ => ⟨S256x1, .f32⟩
  | .hbm, ⟨125, _⟩ => ⟨S256x32, .f32⟩
  | .hbm, ⟨126, _⟩ => ⟨S256x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_14 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_15 : Ref sig .tc := ⟨.hbm, 115, rfl⟩
abbrev main_v85 : Ref sig .tc := ⟨.hbm, 116, rfl⟩
abbrev main_cst_16 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_17 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S256x32 : S_.BroadcastsInDim S256x32 (![] : Fin 0 → Fin S256x32.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  scatter_S256x32_S100000x1_S100000x32_1_0_0_1_wf : ScatterDims.WF S256x32 S100000x1 S100000x32 [1] [0] [0] 1
  scatter_S256_S100000x1_S100000_n_0_0_1_wf : ScatterDims.WF S256 S100000x1 S100000 [] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.Stage0.lean ====
/-
  The host stretches of the network's program between its seven kernel regions, read buffer by buffer.

  The program computes, once, the edge lists with a loop appended at every node (sources, targets) and the
  symmetric normalisation weight of every edge; then three times "project the node rows, gather the projected row of
  every edge's source, scale it by the edge's weight, and sum the scaled rows into the edge's target" (the projection
  and the bias pass being kernel regions, the gather and the segment sum host operations); at last the rows of every
  graph are summed (a kernel region) and divided by the graph's node count, clipped below at one. The reference does
  the same host operations in the same order, so every value a stretch leaves is the reference's stage of the same
  name, of the values the stretch found.
-/
import proofs.«404714_j59846074303063_2_alg».proof.Proof.Gen.KernelIdeal.Frame
import proofs.«404714_j59846074303063_2_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.Stages

open Cert.KernelIdeal Cert.KernelIdeal.Gen Cert.ReferenceIdeal.Read

/-! ## The reference's aggregation, as a function of the rows it is applied to -/

/-- One aggregation over the edges, 64 columns wide: the rows `h` gathered at every edge's source, scaled by the
    edge's weight, summed into the edge's target. -/
def agg64 (h : FVec Ideal Cert.ReferenceIdeal.S100000x64 .f32) (e : IVec Cert.ReferenceIdeal.S2x3200000 32) : FVec Ideal Cert.ReferenceIdeal.S100000x64 .f32 :=
  Host.scatterAdd (F := Ideal) (φ := .f32) Cert.ReferenceIdeal.scatter_S100000x64_S3300000x1_S3300000x64_1_0_0_1 (val_main_v40 (F := Ideal)) (val_main_v41 (F := Ideal) e)
    (mulf (F := Ideal) (φ := .f32) (Host.gather Cert.ReferenceIdeal.gather_S100000x64_S3300000x1_S3300000x64_1_0_n_n_0_1_164 h (val_main_v35 (F := Ideal) e)) (val_main_v38 (F := Ideal) e))

/-- The same aggregation, 32 columns wide. -/
def agg32 (h : FVec Ideal Cert.ReferenceIdeal.S100000x32 .f32) (e : IVec Cert.ReferenceIdeal.S2x3200000 32) : FVec Ideal Cert.ReferenceIdeal.S100000x32 .f32 :=
  Host.scatterAdd (F := Ideal) (φ := .f32) Cert.ReferenceIdeal.scatter_S100000x32_S3300000x1_S3300000x32_1_0_0_1 (val_main_v76 (F := Ideal)) (val_main_v77 (F := Ideal) e)
    (mulf (F := Ideal) (φ := .f32) (Host.gather Cert.ReferenceIdeal.gather_S100000x32_S3300000x1_S3300000x32_1_0_n_n_0_1_132 h (val_main_v71 (F := Ideal) e)) (val_main_v74 (F := Ideal) e))

set_option maxRecDepth 65536 in
/-- The first layer's aggregation in the reference is `agg64` of its projection. -/
theorem val_main_v42_eq (x0 : (⟨Cert.ReferenceIdeal.S100000x128, .f32⟩ : BufTy).Contents (Elt Ideal)) (x1 : (⟨Cert.ReferenceIdeal.S2x3200000, .i32⟩ : BufTy).Contents (Elt Ideal))
    (x3 : (⟨Cert.ReferenceIdeal.S128x64, .f32⟩ : BufTy).Contents (Elt Ideal)) :
    val_main_v42 (F := Ideal) x0 x1 x3 = agg64 (val_main_v29 (F := Ideal) x0 x3) x1 := rfl

set_option maxRecDepth 65536 in
/-- The second layer's aggregation in the reference is `agg64` of its projection (the index arithmetic is spelt again
    in the program, with the same constants). -/
theorem val_main_v60_eq (x0 : (⟨Cert.ReferenceIdeal.S100000x128, .f32⟩ : BufTy).Contents (Elt Ideal)) (x1 : (⟨Cert.ReferenceIdeal.S2x3200000, .i32⟩ : BufTy).Contents (Elt Ideal))
    (x3 : (⟨Cert.ReferenceIdeal.S128x64, .f32⟩ : BufTy).Contents (Elt Ideal)) (x4 : (⟨Cert.ReferenceIdeal.S64, .f32⟩ : BufTy).Contents (Elt Ideal))
    (x5 : (⟨Cert.ReferenceIdeal.S64x64, .f32⟩ : BufTy).Contents (Elt Ideal)) :
    val_main_v60 (F := Ideal) x0 x1 x3 x4 x5 = agg64 (val_main_v47 (F := Ideal) x0 x1 x3 x4 x5) x1 := rfl

set_option maxRecDepth 65536 in
/-- The third layer's aggregation in the reference is `agg32` of its projection. -/
theorem val_main_v78_eq (x0 : (⟨Cert.ReferenceIdeal.S100000x128, .f32⟩ : BufTy).Contents (Elt Ideal)) (x1 : (⟨Cert.ReferenceIdeal.S2x3200000, .i32⟩ : BufTy).Contents (Elt Ideal))
    (x3 : (⟨Cert.ReferenceIdeal.S128x64, .f32⟩ : BufTy).Contents (Elt Ideal)) (x4 : (⟨Cert.ReferenceIdeal.S64, .f32⟩ : BufTy).Contents (Elt Ideal))
    (x5 : (⟨Cert.ReferenceIdeal.S64x64, .f32⟩ : BufTy).Contents (Elt Ideal)) (x6 : (⟨Cert.ReferenceIdeal.S64, .f32⟩ : BufTy).Contents (Elt Ideal))
    (x7 : (⟨Cert.ReferenceIdeal.S64x32, .f32⟩ : BufTy).Contents (Elt Ideal)) :
    val_main_v78 (F := Ideal) x0 x1 x3 x4 x5 x6 x7 = agg32 (val_main_v65 (F := Ideal) x0 x1 x3 x4 x5 x6 x7) x1 := rfl

variable (m : (ℓ : Loc nD τ sig) → Buf (Elt Ideal) ℓ) (ρ : Dev nD → PrngReg) (c : Dev nD)

/-! ## Before the first region: the edge lists and the edge weights; the arguments as launched -/

theorem W1_arg0 : W1 m ρ c (Proc.devRef .tc main_arg0) = m ((c : Thread nD τ).loc main_arg0) := by
  show StableHlo.after hostOps0 _ _ = _
  after_results_simp
theorem W1_arg1 : W1 m ρ c (Proc.devRef .tc main_arg1) = m ((c : Thread nD τ).loc main_arg1) := by
  show StableHlo.after hostOps0 _ _ = _
  after_results_simp
theorem W1_arg2 : W1 m ρ c (Proc.devRef .tc main_arg2) = m ((c : Thread nD τ).loc main_arg2) := by
  show StableHlo.after hostOps0 _ _ = _
  after_results_simp
theorem W1_arg3 : W1 m ρ c (Proc.devRef .tc main_arg3) = m ((c : Thread nD τ).loc main_arg3) := by
  show StableHlo.after hostOps0 _ _ = _
  after_results_simp
theorem W1_arg4 : W1 m ρ c (Proc.devRef .tc main_arg4) = m ((c : Thread nD τ).loc main_arg4) := by
  show StableHlo.after hostOps0 _ _ = _
  after_results_simp
theorem W1_arg5 : W1 m ρ c (Proc.devRef .tc main_arg5) = m ((c : Thread nD τ).loc main_arg5) := by
  show StableHlo.after hostOps0 _ _ = _
  after_results_simp
theorem W1_arg6 : W1 m ρ c (Proc.devRef .tc main_arg6) = m ((c : Thread nD τ).loc main_arg6) := by
  show StableHlo.after hostOps0 _ _ = _
  after_results_simp
theorem W1_arg7 : W1 m ρ c (Proc.devRef .tc main_arg7) = m ((c : Thread nD τ).loc main_arg7) := by
  show StableHlo.after hostOps0 _ _ = _
  after_results_simp
theorem W1_arg8 : W1 m ρ c (Proc.devRef .tc main_arg8) = m ((c : Thread nD τ).loc main_arg8) := by
  show StableHlo.after hostOps0 _ _ = _
  after_results_simp

set_option maxRecDepth 8192 in
/-- The edges' sources, every node's loop appended. -/
theorem W1_v3 : W1 m ρ c (Proc.devRef .tc main_v3) = val_main_v3 (F := Ideal) (m ((c : Thread nD τ).loc main_arg1)) := by
  show StableHlo.after hostOps0 _ _ = _
  after_results_simp
  rfl

set_option maxRecDepth 8192 in
/-- The edges' targets, every node's loop appended. -/
theorem W1_v6 : W1 m ρ c (Proc.devRef .tc main_v6) = val_main_v6 (F := Ideal) (m ((c : Thread nD τ).loc main_arg1)) := by
  show StableHlo.after hostOps0 _ _ = _
  after_results_simp
  rfl

set_option maxRecDepth 8192 in
/-- The edges' weights: the product of the inverse square roots of the two end nodes' degrees. -/
theorem W1_v28 : W1 m ρ c (Proc.devRef .tc main_v28) = val_main_v28 (F := Ideal) (m ((c : Thread nD τ).loc main_arg1)) := by
  show StableHlo.after hostOps0 _ _ = _
  after_results_simp
  rfl

end Cert.Stages

end
-- ==== Proof.Keep.lean ====
/-
  What the later stretches and regions still read — the edge lists, the edge weights, the arguments — is written by
  nothing after it is first computed: at every boundary of the run it holds what the first stretch left.
-/
import proofs.«404714_j59846074303063_2_alg».proof.Proof.Stage0

noncomputable section

open Idealize.ShloMosaic Idealize.ShloMosaic.TcCoe Idealize.SL.Sem Idealize.ShloMosaic.StableHlo

namespace Cert.Stages

open Cert.KernelIdeal Cert.KernelIdeal.Gen Cert.ReferenceIdeal.Read

variable (m : (ℓ : Loc nD τ sig) → Buf (Elt Ideal) ℓ) (ρ : Dev nD → PrngReg) (c : Dev nD)

theorem W2_v3 : W2 m ρ c (Proc.devRef .tc main_v3) = val_main_v3 (F := Ideal) (m ((c : Thread nD τ).loc main_arg1)) :=
  (W2_of_ne m ρ c main_v3 (by decide)).trans (W1_v3 m ρ c)
theorem W2_v6 : W2 m ρ c (Proc.devRef .tc main_v6) = val_main_v6 (F := Ideal) (m ((c : Thread nD τ).loc main_arg1)) :=
  (W2_of_ne m ρ c main_v6 (by decide)).trans (W1_v6 m ρ c)
theorem W2_v28 : W2 m ρ c (Proc.devRef .tc main_v28) = val_main_v28 (F := Ideal) (m ((c : Thread nD τ).loc main_arg1)) :=
  (W2_of_ne m ρ c main_v28 (by decide)).trans (W1_v28 m ρ c)
theorem W2_arg2 : W2 m ρ c (Proc.devRef .tc main_arg2) = m ((c : Thread nD τ).loc main_arg2) :=
  (W2_of_ne m ρ c main_arg2 (by decide)).trans (W1_arg2 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)

theorem W3_v3 : W3 m ρ c (Proc.devRef .tc main_v3) = val_main_v3 (F := Ideal) (m ((c : Thread nD τ).loc main_arg1)) := by
  show StableHlo.after hostOps1 _ _ = _
  after_results_simp
  exact W2_v3 m ρ c
theorem W3_v6 : W3 m ρ c (Proc.devRef .tc main_v6) = val_main_v6 (F := Ideal) (m ((c : Thread nD τ).loc main_arg1)) := by
  show StableHlo.after hostOps1 _ _ = _
  after_results_simp
  exact W2_v6 m ρ c
theorem W3_v28 : W3 m ρ c (Proc.devRef .tc main_v28) = val_main_v28 (F := Ideal) (m ((c : Thread nD τ).loc main_arg1)) := by
  show StableHlo.after hostOps1 _ _ = _
  after_results_simp
  exact W2_v28 m ρ c
theorem W3_arg2 : W3 m ρ c (Proc.devRef .tc main_arg2) = m ((c : Thread nD τ).loc main_arg2) := by
  show StableHlo.after hostOps1 _ _ = _
  after_results_simp
  exact W2_arg2 m ρ c
theorem W3_arg5 : W3 m ρ c (Proc.devRef .tc main_arg5) = m ((c : Thread nD τ).loc main_arg5) := by
  show StableHlo.after hostOps1 _ _ = _
  after_results_simp
  exact W2_arg5 m ρ c
theorem W3_arg6 : W3 m ρ c (Proc.devRef .tc main_arg6) = m ((c : Thread nD τ).loc main_arg6) := by
  show StableHlo.after hostOps1 _ _ = _
  after_results_simp
  exact W2_arg6 m ρ c
theorem W3_arg7 : W3 m ρ c (Proc.devRef .tc main_arg7) = m ((c : Thread nD τ).loc main_arg7) := by
  show StableHlo.after hostOps1 _ _ = _
  after_results_simp
  exact W2_arg7 m ρ c
theorem W3_arg8 : W3 m ρ c (Proc.devRef .tc main_arg8) = m ((c : Thread nD τ).loc main_arg8) := by
  show StableHlo.after hostOps1 _ _ = _
  after_results_simp
  exact W2_arg8 m ρ c

theorem W4_v3 : W4 m ρ c (Proc.devRef .tc main_v3) = val_main_v3 (F := Ideal) (m ((c : Thread nD τ).loc main_arg1)) :=
  (W4_of_ne m ρ c main_v3 (by decide)).trans (W3_v3 m ρ c)
theorem W4_v6 : W4 m ρ c (Proc.devRef .tc main_v6) = val_main_v6 (F := Ideal) (m ((c : Thread nD τ).loc main_arg1)) :=
  (W4_of_ne m ρ c main_v6 (by decide)).trans (W3_v6 m ρ c)
theorem W4_v28 : W4 m ρ c (Proc.devRef .tc main_v28) = val_main_v28 (F := Ideal) (m ((c : Thread nD τ).loc main_arg1)) :=
  (W4_of_ne m ρ c main_v28 (by decide)).trans (W3_v28 m ρ c)
theorem W4_arg2 : W4 m ρ c (Proc.devRef .tc main_arg2) = m ((c : Thread nD τ).loc main_arg2) :=
  (W4_of_ne m ρ c main_arg2 (by decide)).trans (W3_arg2 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)

theorem W5_v3 : W5 m ρ c (Proc.devRef .tc main_v3) = val_main_v3 (F := Ideal) (m ((c : Thread nD τ).loc main_arg1)) :=
  (W5_of_ne m ρ c main_v3 (by decide)).trans (W4_v3 m ρ c)
theorem W5_v6 : W5 m ρ c (Proc.devRef .tc main_v6) = val_main_v6 (F := Ideal) (m ((c : Thread nD τ).loc main_arg1)) :=
  (W5_of_ne m ρ c main_v6 (by decide)).trans (W4_v6 m ρ c)
theorem W5_v28 : W5 m ρ c (Proc.devRef .tc main_v28) = val_main_v28 (F := Ideal) (m ((c : Thread nD τ).loc main_arg1)) :=
  (W5_of_ne m ρ c main_v28 (by decide)).trans (W4_v28 m ρ c)
theorem W5_arg2 : W5 m ρ c (Proc.devRef .tc main_arg2) = m ((c : Thread nD τ).loc main_arg2) :=
  (W5_of_ne m ρ c main_arg2 (by decide)).trans (W4_arg2 m ρ c)
theorem W5_arg6 : W5 m ρ c (Proc.devRef .tc main_arg6) = m ((c : Thread nD τ).loc main_arg6) :=
  (W5_of_ne m ρ c main_arg6 (by decide)).trans (W4_arg6 m ρ c)
theorem W5_arg7 : W5 m ρ c (Proc.devRef .tc main_arg7) = m ((c : Thread nD τ).loc main_arg7) :=
  (W5_of_ne m ρ c main_arg7 (by decide)).trans (W4_arg7 m ρ c)
theorem W5_arg8 : W5 m ρ c (Proc.devRef .tc main_arg8) = m ((c : Thread nD τ).loc main_arg8) :=
  (W5_of_ne m ρ c main_arg8 (by decide)).trans (W4_arg8 m ρ c)

theorem W6_v3 : W6 m ρ c (Proc.devRef .tc main_v3) = val_main_v3 (F := Ideal) (m ((c : Thread nD τ).loc main_arg1)) := by
  show StableHlo.after hostOps3 _ _ = _
  after_results_simp
  exact W5_v3 m ρ c
theorem W6_v6 : W6 m ρ c (Proc.devRef .tc main_v6) = val_main_v6 (F := Ideal) (m ((c : Thread nD τ).loc main_arg1)) := by
  show StableHlo.after hostOps3 _ _ = _
  after_results_simp
  exact W5_v6 m ρ c
theorem W6_v28 : W6 m ρ c (Proc.devRef .tc main_v28) = val_main_v28 (F := Ideal) (m ((c : Thread nD τ).loc main_arg1)) := by
  show StableHlo.after hostOps3 _ _ = _
  after_results_simp
  exact W5_v28 m ρ c
theorem W6_arg2 : W6 m ρ c (Proc.devRef .tc main_arg2) = m ((c : Thread nD τ).loc main_arg2) := by
  show StableHlo.after hostOps3 _ _ = _
  after_results_simp
  exact W5_arg2 m ρ c
theorem W6_arg7 : W6 m ρ c (Proc.devRef .tc main_arg7) = m ((c : Thread nD τ).loc main_arg7) := by
  show StableHlo.after hostOps3 _ _ = _
  after_results_simp
  exact W5_arg7 m ρ c
theorem W6_arg8 : W6 m ρ c (Proc.devRef .tc main_arg8) = m ((c : Thread nD τ).loc main_arg8) := by
  show StableHlo.after hostOps3 _ _ = _
  after_results_simp
  exact W5_arg8 m ρ c

theorem W7_v3 : W7 m ρ c (Proc.devRef .tc main_v3) = val_main_v3 (F := Ideal) (m ((c : Thread nD τ).loc main_arg1)) :=
  (W7_of_ne m ρ c main_v3 (by decide)).trans (W6_v3 m ρ c)
theorem W7_v6 : W7 m ρ c (Proc.devRef .tc main_v6) = val_main_v6 (F := Ideal) (m ((c : Thread nD τ).loc main_arg1)) :=
  (W7_of_ne m ρ c main_v6 (by decide)).trans (W6_v6 m ρ c)
theorem W7_v28 : W7 m ρ c (Proc.devRef .tc main_v28) = val_main_v28 (F := Ideal) (m ((c : Thread nD τ).loc main_arg1)) :=
  (W7_of_ne m ρ c main_v28 (by decide)).trans (W6_v28 m ρ c)
theorem W7_arg2 : W7 m ρ c (Proc.devRef .tc main_arg2) = m ((c : Thread nD τ).loc main_arg2) :=
  (W7_of_ne m ρ c main_arg2 (by decide)).trans (W6_arg2 m ρ c)
theorem W7_arg7 : W7 m ρ c (Proc.devRef .tc main_arg7) = m ((c : Thread nD τ).loc main_arg7) :=
  (W7_of_ne m ρ c main_arg7 (by decide)).trans (W6_arg7 m ρ c)
theorem W7_arg8 : W7 m ρ c (Proc.devRef .tc main_arg8) = m ((c : Thread nD τ).loc main_arg8) :=
  (W7_of_ne m ρ c main_arg8 (by decide)).trans (W6_arg8 m ρ c)

theorem W8_v3 : W8 m ρ c (Proc.devRef .tc main_v3) = val_main_v3 (F := Ideal) (m ((c : Thread nD τ).loc main_arg1)) :=
  (W8_of_ne m ρ c main_v3 (by decide)).trans (W7_v3 m ρ c)
theorem W8_v6 : W8 m ρ c (Proc.devRef .tc main_v6) = val_main_v6 (F := Ideal) (m ((c : Thread nD τ).loc main_arg1)) :=
  (W8_of_ne m ρ c main_v6 (by decide)).trans (W7_v6 m ρ c)
theorem W8_v28 : W8 m ρ c (Proc.devRef .tc main_v28) = val_main_v28 (F := Ideal) (m ((c : Thread nD τ).loc main_arg1)) :=
  (W8_of_ne m ρ c main_v28 (by decide)).trans (W7_v28 m ρ c)
theorem W8_arg2 : W8 m ρ c (Proc.devRef .tc main_arg2) = m ((c : Thread nD τ).loc main_arg2) :=
  (W8_of_ne m ρ c main_arg2 (by decide)).trans (W7_arg2 m ρ c)
theorem W8_arg8 : W8 m ρ c (Proc.devRef .tc main_arg8) = m ((c : Thread nD τ).loc main_arg8) :=
  (W8_of_ne m ρ c main_arg8 (by decide)).trans (W7_arg8 m ρ c)

theorem W9_arg2 : W9 m ρ c (Proc.devRef .tc main_arg2) = m ((c : Thread nD τ).loc main_arg2) := by
  show StableHlo.after hostOps5 _ _ = _
  after_results_simp
  exact W8_arg2 m ρ c

theorem W10_arg2 : W10 m ρ c (Proc.devRef .tc main_arg2) = m ((c : Thread nD τ).loc main_arg2) :=
  (W10_of_ne m ρ c main_arg2 (by decide)).trans (W9_arg2 m ρ c)

theorem W11_arg2 : W11 m ρ c (Proc.devRef .tc main_arg2) = m ((c : Thread nD τ).loc main_arg2) := by
  show StableHlo.after hostOps6 _ _ = _
  after_results_simp
  exact W10_arg2 m ρ c

theorem W12_arg2 : W12 m ρ c (Proc.devRef .tc main_arg2) = m ((c : Thread nD τ).loc main_arg2) :=
  (W12_of_ne m ρ c main_arg2 (by decide)).trans (W11_arg2 m ρ c)

end Cert.Stages

end
-- ==== Proof.Stages.lean ====
/-
  The values the host stretches of the network's program leave for the kernel regions, and the last stretch's result.

  After each projection region the stretch gathers the projected row of every edge's source, scales it by the edge's
  weight and sums it into the edge's target — the reference's aggregation (`agg64`, `agg32`) of whatever rows the
  projection left —, and reshapes the layer's bias into a one-row matrix for the bias region. Before the pooling region
  it reshapes the nodes' graph numbers into a one-column matrix; after it, it divides every graph's row sum by the
  graph's node count clipped below at one.
-/
import proofs.«404714_j59846074303063_2_alg».proof.Proof.Keep

noncomputable section

open Idealize.ShloMosaic Idealize.ShloMosaic.TcCoe Idealize.SL.Sem Idealize.ShloMosaic.StableHlo

namespace Cert.Stages

open Cert.KernelIdeal Cert.KernelIdeal.Gen Cert.ReferenceIdeal.Read

variable (m : (ℓ : Loc nD τ sig) → Buf (Elt Ideal) ℓ) (ρ : Dev nD → PrngReg) (c : Dev nD)

set_option maxRecDepth 65536 in
/-- The first aggregation, of whatever rows the first projection left. -/
theorem W3_v42 : W3 m ρ c (Proc.devRef .tc main_v42) = agg64 (W2 m ρ c (Proc.devRef .tc main_v29)) (m ((c : Thread nD τ).loc main_arg1)) := by
  show StableHlo.after hostOps1 _ _ = _
  after_results_simp
  rw [W2_v3 m ρ c, W2_v6 m ρ c, W2_v28 m ρ c]
  rfl

/-- The first bias, as a one-row matrix. -/
theorem W3_v43 : W3 m ρ c (Proc.devRef .tc main_v43) = shapeCast S1x64 (m ((c : Thread nD τ).loc main_arg4)) shapeCasts_S64_S1x64 := by
  show StableHlo.after hostOps1 _ _ = _
  after_results_simp
  rw [W2_arg4 m ρ c]
  rfl

set_option maxRecDepth 65536 in
/-- The second aggregation, of whatever rows the second projection left. -/
theorem W6_v58 : W6 m ρ c (Proc.devRef .tc main_v58) = agg64 (W5 m ρ c (Proc.devRef .tc main_v45)) (m ((c : Thread nD τ).loc main_arg1)) := by
  show StableHlo.after hostOps3 _ _ = _
  after_results_simp
  rw [W5_v3 m ρ c, W5_v6 m ρ c, W5_v28 m ρ c]
  rfl

/-- The second bias, as a one-row matrix. -/
theorem W6_v59 : W6 m ρ c (Proc.devRef .tc main_v59) = shapeCast S1x64 (m ((c : Thread nD τ).loc main_arg6)) shapeCasts_S64_S1x64 := by
  show StableHlo.after hostOps3 _ _ = _
  after_results_simp
  rw [W5_arg6 m ρ c]
  rfl

set_option maxRecDepth 65536 in
/-- The third aggregation, of whatever rows the third projection left. -/
theorem W9_v74 : W9 m ρ c (Proc.devRef .tc main_v74) = agg32 (W8 m ρ c (Proc.devRef .tc main_v61)) (m ((c : Thread nD τ).loc main_arg1)) := by
  show StableHlo.after hostOps5 _ _ = _
  after_results_simp
  rw [W8_v3 m ρ c, W8_v6 m ρ c, W8_v28 m ρ c]
  rfl

/-- The third bias, as a one-row matrix. -/
theorem W9_v75 : W9 m ρ c (Proc.devRef .tc main_v75) = shapeCast S1x32 (m ((c : Thread nD τ).loc main_arg8)) shapeCasts_S32_S1x32 := by
  show StableHlo.after hostOps5 _ _ = _
  after_results_simp
  rw [W8_arg8 m ρ c]
  rfl

/-- The graph number of every node, as a one-column matrix. -/
theorem W11_v77 : W11 m ρ c (Proc.devRef .tc main_v77) = shapeCast S100000x1 (m ((c : Thread nD τ).loc main_arg2)) shapeCasts_S100000_S100000x1 := by
  show StableHlo.after hostOps6 _ _ = _
  after_results_simp
  rw [W10_arg2 m ρ c]
  rfl

/-- That reshape does not touch the third layer's rows. -/
theorem W11_v76 : W11 m ρ c (Proc.devRef .tc main_v76) = W10 m ρ c (Proc.devRef .tc main_v76) := by
  show StableHlo.after hostOps6 _ _ = _
  after_results_simp

set_option maxRecDepth 65536 in
/-- The result: the graphs' row sums, whatever the pooling left, each divided by its graph's node count clipped below at one. -/
theorem W13_v87 : W13 m ρ c (Proc.devRef .tc main_v87)
    = Host.divf (F := Ideal) (φ := .f32) (W12 m ρ c (Proc.devRef .tc main_v78)) (val_main_v92 (F := Ideal) (m ((c : Thread nD τ).loc main_arg2))) := by
  show StableHlo.after hostOps7 _ _ = _
  after_results_simp
  rw [W12_arg2 m ρ c]
  rfl

end Cert.Stages

end
-- ==== Proof.Spec.lean ====
/-
  The layer functions of a graph convolution network, index by index over the extended reals:
  a matrix of rows times a weight matrix, a row added to every row (then clipped below at zero),
  and the sum of the rows of each segment.
-/
import Idealize.ShloMosaic.PureOps.Ideal
import Idealize.ShloMosaic.Lib.ValueIdx

noncomputable section

namespace Cert.Gcn

open Idealize.ShloMosaic Idealize.ShloMosaic.ValueIdx

/-- The shape of an a x b matrix. -/
abbrev Mat (a b : Nat) : Shape := ⟨2, ![a, b]⟩

/-- Rows times weights: entry (p, q) is the sum over j of x (p, j) * w (j, q). -/
def rowsTimes {n k d : Nat} (x : (Mat n k).Idx → EReal) (w : (Mat k d).Idx → EReal) : (Mat n d).Idx → EReal :=
  fun i => ∑ j : Fin k, x (ix2 (i 0) j) * w (ix2 j (i 1))

/-- The one row b added to every row of x. -/
def addRow {n d : Nat} (x : (Mat n d).Idx → EReal) (b : (Mat 1 d).Idx → EReal) : (Mat n d).Idx → EReal :=
  fun i => x i + b (ix2 0 (i 1))

/-- The one row b added to every row of x, and the result clipped below at zero. -/
def addRowRelu {n d : Nat} (x : (Mat n d).Idx → EReal) (b : (Mat 1 d).Idx → EReal) : (Mat n d).Idx → EReal :=
  fun i => max (x i + b (ix2 0 (i 1))) 0

/-- Row g of the result is the sum of the rows t of h whose segment word is g. -/
def segSum {n g d : Nat} (h : (Mat n d).Idx → EReal) (seg : (Mat n 1).Idx → BitVec 32) : (Mat g d).Idx → EReal :=
  fun i => ∑ t : Fin n, if seg (ix2 t 0) = BitVec.ofNat 32 (i 0).val then h (ix2 t (i 1)) else 0

end Cert.Gcn

end
-- ==== Proof.Proj0.lean ====
/-
  The first dense transform, h = x W, as one function of the whole arrays.

  x is 100000 x 128, W is 128 x 64. The product is formed in ten blocks of 10000 rows: at point t the left block is rows
  10000 t .. 10000 t + 9999 of x, the right block is all of W, and the block written back is their product, both operands
  first narrowed to bf16, which over the extended reals changes nothing. Entry (p, q) of a block product is the sum over
  the 128 contracted positions j of (left block) (p, j) * W (j, q), so the block written back at point t is rows
  10000 t .. 10000 t + 9999 of x W; row r of the result lies in the block of point r / 10000, so the ten blocks cover the
  result and it holds x W everywhere.
-/
import proofs.«404714_j59846074303063_2_alg».proof.Proof.Gen.KernelIdeal.Frame
import proofs.«404714_j59846074303063_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Gcn

/-- Output entry (p, q) of the product reads the left operand on row p: its row axis is not contracted. -/
theorem proj0_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- and at the contraction index on its column axis, the one contracted axis. -/
theorem proj0_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand is read at the contraction index on its row axis, -/
theorem proj0_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- and on column q. -/
theorem proj0_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's payload at entry (p, q) of a block: the narrowing casts change nothing over the extended reals, and the
    product into the zero accumulator is the sum over the 128 contracted positions of row p of the left block times
    column q of the right block. -/
theorem proj0_pay (x0 : Vec Ideal S10000x128 .f32) (x1 : Vec Ideal S128x64 .f32) (p : Fin 10000) (q : Fin 64) :
    k0_pay1 (F := Ideal) x0 x1 (ix2 p q) = ∑ j : Fin 128, x0 (ix2 p j) * x1 (ix2 j q) := by
  unfold k0_pay1
  refine (Ideal.matmul_constant_zero_apply dot_S10000x128_S128x64_S10000x64_1_0_0_1_n_n none (φ₁ := .bf16) (φ₂ := .bf16) x0 x1 (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact proj0_lhs_0 _ _
    | ⟨1, _⟩ => exact (proj0_lhs_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (proj0_rhs_0 _ _).trans hk
    | ⟨1, _⟩ => exact proj0_rhs_1 _ _)
  rw [el, er]

variable (V : (c : Dev nD) → (b : Ref sig .tc) → Buf (Elt Ideal) ((c : Thread nD τ).loc b))

/-- The zero offsets of a whole-buffer access, as a constant function. -/
theorem proj0_zero : (![0, 0] : Fin 2 → Nat) = fun _ => 0 := funext fun a => by fin_cases a <;> rfl

/-- The index maps over the ten grid points: point t takes row block t of the left matrix and of the result, and the whole
    weight matrix. -/
theorem proj0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry y of the left block at point t is the left matrix at row 10000 t + y 0, column y 1. -/
theorem proj0_left_block (c : Dev nD) (t : Fin cfg0.N) (y : S10000x128.Idx) (k : S100000x128.Idx)
    (hk0 : (k 0).val = 10000 * t.val + (y 0).val) (hk1 : (k 1).val = (y 1).val) :
    (iblk0 (F := Ideal) V c 0 t : Vec Ideal S10000x128 .f32) y = (V c main_arg0 : S100000x128.Idx → EReal) k := by
  obtain ⟨e0, e1, -, -, -, -⟩ := proj0_idx t
  unfold iblk0
  rw [View.read_apply]
  show V c main_arg0 _ = V c main_arg0 _
  congr 1
  funext a
  apply Fin.ext
  match a with
  | ⟨0, _⟩ => show win0_0.index t (0 : Fin 2) * 10000 + 1 * (y 0).val = (k 0).val; rw [e0, hk0]; omega
  | ⟨1, _⟩ => show win0_0.index t (1 : Fin 2) * 128 + 1 * (y 1).val = (k 1).val; rw [e1, hk1]; omega

/-- The weight block at every point is the whole weight matrix. -/
theorem proj0_right_block (c : Dev nD) (t : Fin cfg0.N) (y : S128x64.Idx) :
    (iblk0 (F := Ideal) V c 1 t : Vec Ideal S128x64 .f32) y = (V c main_arg3 : S128x64.Idx → EReal) y := by
  obtain ⟨-, -, e2, e3, -, -⟩ := proj0_idx t
  unfold iblk0
  rw [View.read_apply]
  show V c main_arg3 _ = V c main_arg3 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 64 + 1 * (y 1).val = (y 1).val; rw [e3]; omega

/-- A block product is a block of the product: if the left block holds the rows r + p of A and the right block is W, entry j
    of the block product is entry (r + j 0, j 1) of A times W. -/
theorem proj0_block_entry (A : (Mat 100000 128).Idx → EReal) (W : (Mat 128 64).Idx → EReal)
    (x0 : Vec Ideal S10000x128 .f32) (x1 : Vec Ideal S128x64 .f32) (r : Nat)
    (h0 : ∀ (y : S10000x128.Idx) (k : S100000x128.Idx), (k 0).val = r + (y 0).val → (k 1).val = (y 1).val → x0 y = A k)
    (h1 : ∀ y : S128x64.Idx, x1 y = W y)
    (j : S10000x64.Idx) (i : S100000x64.Idx) (hi0 : (i 0).val = r + (j 0).val) (hi1 : (i 1).val = (j 1).val) :
    k0_pay1 (F := Ideal) x0 x1 j = rowsTimes (n := 100000) (k := 128) (d := 64) A W i := by
  obtain ⟨p, q, rfl⟩ : ∃ (p : Fin 10000) (q : Fin 64), j = ix2 p q := ⟨j 0, j 1, eq_ix2 j⟩
  rw [proj0_pay]
  unfold rowsTimes
  refine Finset.sum_congr rfl fun k _ => ?_
  rw [h0 (ix2 p k) (ix2 (i 0) k) hi0 rfl, h1 (ix2 k q)]
  congr 2
  funext a
  match a with
  | ⟨0, _⟩ => rfl
  | ⟨1, _⟩ => exact Fin.ext hi1.symm

/-- What point t writes back is block t of the product of the two argument matrices. -/
theorem proj0_flushed (c : Dev nD) (t : Fin cfg0.N) :
    (dat0 (F := Ideal) V c).flushed 2 t = ((cfg0.win 2).blk t).view.read (Elt Ideal) (rowsTimes (n := 100000) (k := 128) (d := 64) (V c main_arg0) (V c main_arg3)) := by
  show (cfg0.win 2).cut (grid0.coords t) ((dat0 (F := Ideal) V c).after 2 t) = _
  rw [after0_2]
  unfold out0_2
  rw [View.canon_unit_zero proj0_zero]
  simp only [View.ld_unit_zero (S := S10000x128) proj0_zero, View.ld_unit_zero (S := S128x64) proj0_zero]
  obtain ⟨-, -, -, -, e4, e5⟩ := proj0_idx t
  funext j
  rw [View.read_apply]
  show k0_pay1 (F := Ideal) (iblk0 V c 0 t) (iblk0 V c 1 t) j = rowsTimes (n := 100000) (k := 128) (d := 64) (V c main_arg0) (V c main_arg3) (((cfg0.win 2).blk t).view.emb j)
  refine proj0_block_entry _ _ _ _ (10000 * t.val) (fun y k hk0 hk1 => proj0_left_block V c t y k hk0 hk1) (fun y => proj0_right_block V c t y) j _ ?_ ?_
  · show win0_2.index t (0 : Fin 2) * 10000 + 1 * (j 0).val = 10000 * t.val + (j 0).val
    rw [e4]; omega
  · show win0_2.index t (1 : Fin 2) * 64 + 1 * (j 1).val = (j 1).val
    rw [e5]; omega

/-- An index of the result is in point t's block iff each coordinate is in the block's range on its axis. -/
theorem proj0_mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Row r of the result lies in the block of point r / 10000: the ten blocks of 10000 rows cover the 100000 rows. -/
theorem proj0_cover (i : S100000x64.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 64 := (i 1).isLt
  let t : Fin cfg0.N := ⟨(i 0).val / 10000, by rw [hN]; omega⟩
  obtain ⟨-, -, -, -, e4, e5⟩ := proj0_idx t
  have ht : t.val = (i 0).val / 10000 := rfl
  refine ⟨t, flush0_2 t, ?_⟩
  rw [proj0_mem_blk]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 64 ≤ (i 1).val ∧ (i 1).val < win0_2.index t (1 : Fin 2) * 64 + 64; rw [e5]; omega

/-- The first dense transform: after its ten points the result array holds the rows of the input matrix times the weight matrix. -/
theorem proj0_value (c : Dev nD) :
    (dat0 (F := Ideal) V c).arrAt 2 cfg0.N = rowsTimes (n := 100000) (k := 128) (d := 64) (V c main_arg0) (V c main_arg3) :=
  (dat0 (F := Ideal) V c).arrAt_eq_of_cover 2 _ (fun t _ => proj0_flushed V c t) proj0_cover

end Cert.KernelIdeal.Value

end
-- ==== Proof.Proj2.lean ====
/-
  The second dense transform, h = x W, as one function of the whole arrays.

  x is 100000 x 64 (the first layer's output), W is 64 x 64. The product is formed in ten blocks of 10000 rows: at point t
  the left block is rows 10000 t .. 10000 t + 9999 of x, the right block is all of W, and the block written back is their
  product; the left block is first recast to its own shape and both operands are narrowed to bf16, neither of which changes
  anything over the extended reals. Entry (p, q) of a block product is the sum over the 64 contracted positions j of
  (left block) (p, j) * W (j, q), so the block written back at point t is rows 10000 t .. 10000 t + 9999 of x W; row r of
  the result lies in the block of point r / 10000, so the ten blocks cover the result and it holds x W everywhere.
-/
import proofs.«404714_j59846074303063_2_alg».proof.Proof.Gen.KernelIdeal.Frame
import proofs.«404714_j59846074303063_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Gcn

/-- Output entry (p, q) of the product reads the left operand on row p: its row axis is not contracted. -/
theorem proj2_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- and at the contraction index on its column axis, the one contracted axis. -/
theorem proj2_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand is read at the contraction index on its row axis, -/
theorem proj2_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- and on column q. -/
theorem proj2_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's payload at entry (p, q) of a block: the recast to the same shape and the narrowing casts change nothing over
    the extended reals, and the product into the zero accumulator is the sum over the 64 contracted positions of row p of
    the left block times column q of the right block. -/
theorem proj2_pay (x0 : Vec Ideal S10000x64 .f32) (x1 : Vec Ideal S64x64 .f32) (p : Fin 10000) (q : Fin 64) :
    k2_pay1 (F := Ideal) x0 x1 (ix2 p q) = ∑ j : Fin 64, x0 (ix2 p j) * x1 (ix2 j q) := by
  unfold k2_pay1
  rw [shapeCast_self]
  refine (Ideal.matmul_constant_zero_apply dot_S10000x64_S64x64_S10000x64_1_0_0_1_n_n none (φ₁ := .bf16) (φ₂ := .bf16) x0 x1 (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact proj2_lhs_0 _ _
    | ⟨1, _⟩ => exact (proj2_lhs_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (proj2_rhs_0 _ _).trans hk
    | ⟨1, _⟩ => exact proj2_rhs_1 _ _)
  rw [el, er]

variable (V : (c : Dev nD) → (b : Ref sig .tc) → Buf (Elt Ideal) ((c : Thread nD τ).loc b))

/-- The zero offsets of a whole-buffer access, as a constant function. -/
theorem proj2_zero : (![0, 0] : Fin 2 → Nat) = fun _ => 0 := funext fun a => by fin_cases a <;> rfl

/-- The index maps over the ten grid points: point t takes row block t of the left matrix and of the result, and the whole
    weight matrix. -/
theorem proj2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry y of the left block at point t is the left matrix at row 10000 t + y 0, column y 1. -/
theorem proj2_left_block (c : Dev nD) (t : Fin cfg2.N) (y : S10000x64.Idx) (k : S100000x64.Idx)
    (hk0 : (k 0).val = 10000 * t.val + (y 0).val) (hk1 : (k 1).val = (y 1).val) :
    (iblk2 (F := Ideal) V c 0 t : Vec Ideal S10000x64 .f32) y = (V c main_v44 : S100000x64.Idx → EReal) k := by
  obtain ⟨e0, e1, -, -, -, -⟩ := proj2_idx t
  unfold iblk2
  rw [View.read_apply]
  show V c main_v44 _ = V c main_v44 _
  congr 1
  funext a
  apply Fin.ext
  match a with
  | ⟨0, _⟩ => show win2_0.index t (0 : Fin 2) * 10000 + 1 * (y 0).val = (k 0).val; rw [e0, hk0]; omega
  | ⟨1, _⟩ => show win2_0.index t (1 : Fin 2) * 64 + 1 * (y 1).val = (k 1).val; rw [e1, hk1]; omega

/-- The weight block at every point is the whole weight matrix. -/
theorem proj2_right_block (c : Dev nD) (t : Fin cfg2.N) (y : S64x64.Idx) :
    (iblk2 (F := Ideal) V c 1 t : Vec Ideal S64x64 .f32) y = (V c main_arg5 : S64x64.Idx → EReal) y := by
  obtain ⟨-, -, e2, e3, -, -⟩ := proj2_idx t
  unfold iblk2
  rw [View.read_apply]
  show V c main_arg5 _ = V c main_arg5 _
  congr 1
  funext a
  apply Fin.ext
  match a with
  | ⟨0, _⟩ => show win2_1.index t (0 : Fin 2) * 64 + 1 * (y 0).val = (y 0).val; rw [e2]; omega
  | ⟨1, _⟩ => show win2_1.index t (1 : Fin 2) * 64 + 1 * (y 1).val = (y 1).val; rw [e3]; omega

/-- A block product is a block of the product: if the left block holds the rows r + p of A and the right block is W, entry j
    of the block product is entry (r + j 0, j 1) of A times W. -/
theorem proj2_block_entry (A : (Mat 100000 64).Idx → EReal) (W : (Mat 64 64).Idx → EReal)
    (x0 : Vec Ideal S10000x64 .f32) (x1 : Vec Ideal S64x64 .f32) (r : Nat)
    (h0 : ∀ (y : S10000x64.Idx) (k : S100000x64.Idx), (k 0).val = r + (y 0).val → (k 1).val = (y 1).val → x0 y = A k)
    (h1 : ∀ y : S64x64.Idx, x1 y = W y)
    (j : S10000x64.Idx) (i : S100000x64.Idx) (hi0 : (i 0).val = r + (j 0).val) (hi1 : (i 1).val = (j 1).val) :
    k2_pay1 (F := Ideal) x0 x1 j = rowsTimes (n := 100000) (k := 64) (d := 64) A W i := by
  obtain ⟨p, q, rfl⟩ : ∃ (p : Fin 10000) (q : Fin 64), j = ix2 p q := ⟨j 0, j 1, eq_ix2 j⟩
  rw [proj2_pay]
  unfold rowsTimes
  refine Finset.sum_congr rfl fun k _ => ?_
  rw [h0 (ix2 p k) (ix2 (i 0) k) hi0 rfl, h1 (ix2 k q)]
  congr 2
  funext a
  match a with
  | ⟨0, _⟩ => rfl
  | ⟨1, _⟩ => exact Fin.ext hi1.symm

/-- What point t writes back is block t of the product of the two matrices the region finds. -/
theorem proj2_flushed (c : Dev nD) (t : Fin cfg2.N) :
    (dat2 (F := Ideal) V c).flushed 2 t = ((cfg2.win 2).blk t).view.read (Elt Ideal) (rowsTimes (n := 100000) (k := 64) (d := 64) (V c main_v44) (V c main_arg5)) := by
  show (cfg2.win 2).cut (grid2.coords t) ((dat2 (F := Ideal) V c).after 2 t) = _
  rw [after2_2]
  unfold out2_2
  rw [View.canon_unit_zero proj2_zero]
  simp only [View.ld_unit_zero (S := S10000x64) proj2_zero, View.ld_unit_zero (S := S64x64) proj2_zero]
  obtain ⟨-, -, -, -, e4, e5⟩ := proj2_idx t
  funext j
  rw [View.read_apply]
  show k2_pay1 (F := Ideal) (iblk2 V c 0 t) (iblk2 V c 1 t) j = rowsTimes (n := 100000) (k := 64) (d := 64) (V c main_v44) (V c main_arg5) (((cfg2.win 2).blk t).view.emb j)
  refine proj2_block_entry _ _ _ _ (10000 * t.val) (fun y k hk0 hk1 => proj2_left_block V c t y k hk0 hk1) (fun y => proj2_right_block V c t y) j _ ?_ ?_
  · show win2_2.index t (0 : Fin 2) * 10000 + 1 * (j 0).val = 10000 * t.val + (j 0).val
    rw [e4]; omega
  · show win2_2.index t (1 : Fin 2) * 64 + 1 * (j 1).val = (j 1).val
    rw [e5]; omega

/-- An index of the result is in point t's block iff each coordinate is in the block's range on its axis. -/
theorem proj2_mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v45).slice (win2_2.rect t)).set ↔ _
  rw [View.set_slice_whole, Rect.mem_set_unit]
  exact Iff.rfl

/-- Row r of the result lies in the block of point r / 10000: the ten blocks of 10000 rows cover the 100000 rows. -/
theorem proj2_cover (i : S100000x64.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 64 := (i 1).isLt
  let t : Fin cfg2.N := ⟨(i 0).val / 10000, by rw [hN]; omega⟩
  obtain ⟨-, -, -, -, e4, e5⟩ := proj2_idx t
  have ht : t.val = (i 0).val / 10000 := rfl
  refine ⟨t, flush2_2 t, ?_⟩
  rw [proj2_mem_blk]
  intro a
  match a with
  | ⟨0, _⟩ => show win2_2.index t (0 : Fin 2) * 10000 ≤ (i 0).val ∧ (i 0).val < win2_2.index t (0 : Fin 2) * 10000 + 10000; rw [e4, ht]; omega
  | ⟨1, _⟩ => show win2_2.index t (1 : Fin 2) * 64 ≤ (i 1).val ∧ (i 1).val < win2_2.index t (1 : Fin 2) * 64 + 64; rw [e5]; omega

/-- The second dense transform: after its ten points the result array holds the rows of the first layer's output times the
    weight matrix. -/
theorem proj2_value (c : Dev nD) :
    (dat2 (F := Ideal) V c).arrAt 2 cfg2.N = rowsTimes (n := 100000) (k := 64) (d := 64) (V c main_v44) (V c main_arg5) :=
  (dat2 (F := Ideal) V c).arrAt_eq_of_cover 2 _ (fun t _ => proj2_flushed V c t) proj2_cover

end Cert.KernelIdeal.Value

end
-- ==== Proof.Proj4.lean ====
/-
  The third dense transform, h = x W, as one function of the whole arrays.

  x is 100000 x 64 (the second layer's output), W is 64 x 32. The product is formed in ten blocks of 10000 rows: at point t
  the left block is rows 10000 t .. 10000 t + 9999 of x, the right block is all of W, and the block written back is their
  product; the left block is first recast to its own shape and both operands are narrowed to bf16, neither of which changes
  anything over the extended reals. Entry (p, q) of a block product is the sum over the 64 contracted positions j of
  (left block) (p, j) * W (j, q), so the block written back at point t is rows 10000 t .. 10000 t + 9999 of x W; row r of
  the result lies in the block of point r / 10000, so the ten blocks cover the result and it holds x W everywhere.
-/
import proofs.«404714_j59846074303063_2_alg».proof.Proof.Gen.KernelIdeal.Frame
import proofs.«404714_j59846074303063_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Gcn

/-- Output entry (p, q) of the product reads the left operand on row p: its row axis is not contracted. -/
theorem proj4_lhs_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- and at the contraction index on its column axis, the one contracted axis. -/
theorem proj4_lhs_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
/-- The right operand is read at the contraction index on its row axis, -/
theorem proj4_rhs_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
/-- and on column q. -/
theorem proj4_rhs_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The body's payload at entry (p, q) of a block: the recast to the same shape and the narrowing casts change nothing over
    the extended reals, and the product into the zero accumulator is the sum over the 64 contracted positions of row p of
    the left block times column q of the right block. -/
theorem proj4_pay (x0 : Vec Ideal S10000x64 .f32) (x1 : Vec Ideal S64x32 .f32) (p : Fin 10000) (q : Fin 32) :
    k4_pay1 (F := Ideal) x0 x1 (ix2 p q) = ∑ j : Fin 64, x0 (ix2 p j) * x1 (ix2 j q) := by
  unfold k4_pay1
  rw [shapeCast_self]
  refine (Ideal.matmul_constant_zero_apply dot_S10000x64_S64x32_S10000x32_1_0_0_1_n_n none (φ₁ := .bf16) (φ₂ := .bf16) x0 x1 (ix2 p q)).trans ?_
  rw [← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q) ((contrEquiv1 dot_S10000x64_S64x32_S10000x32_1_0_0_1_n_n 64 rfl rfl).symm k) = ix2 p k := funext fun a => Fin.ext (by
    match a with
    | ⟨0, _⟩ => exact proj4_lhs_0 _ _
    | ⟨1, _⟩ => exact (proj4_lhs_1 _ _).trans hk)
  have er : dot_S10000x64_S64x32_S10000x32_1_0_0_1_n_n.rhsIdx (ix2 p q) ((contrEquiv1 dot_S10000x64_S64x32_S10000x32_1_0_0_1_n_n 64 rfl rfl).symm k) = ix2 k q := funext fun a => Fin.ext (by
    match a with
    | ⟨0, _⟩ => exact (proj4_rhs_0 _ _).trans hk
    | ⟨1, _⟩ => exact proj4_rhs_1 _ _)
  rw [el, er]

variable (V : (c : Dev nD) → (b : Ref sig .tc) → Buf (Elt Ideal) ((c : Thread nD τ).loc b))

/-- The zero offsets of a whole-buffer access, as a constant function. -/
theorem proj4_zero : (![0, 0] : Fin 2 → Nat) = fun _ => 0 := funext fun a => by fin_cases a <;> rfl

/-- The index maps over the ten grid points: point t takes row block t of the left matrix and of the result, and the whole
    weight matrix. -/
theorem proj4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry y of the left block at point t is the left matrix at row 10000 t + y 0, column y 1. -/
theorem proj4_left_block (c : Dev nD) (t : Fin cfg4.N) (y : S10000x64.Idx) (k : S100000x64.Idx)
    (hk0 : (k 0).val = 10000 * t.val + (y 0).val) (hk1 : (k 1).val = (y 1).val) :
    (iblk4 (F := Ideal) V c 0 t : Vec Ideal S10000x64 .f32) y = (V c main_v60 : S100000x64.Idx → EReal) k := by
  obtain ⟨e0, e1, -, -, -, -⟩ := proj4_idx t
  unfold iblk4
  rw [View.read_apply]
  show V c main_v60 _ = V c main_v60 _
  congr 1
  funext a
  apply Fin.ext
  match a with
  | ⟨0, _⟩ => show win4_0.index t (0 : Fin 2) * 10000 + 1 * (y 0).val = (k 0).val; rw [e0, hk0]; omega
  | ⟨1, _⟩ => show win4_0.index t (1 : Fin 2) * 64 + 1 * (y 1).val = (k 1).val; rw [e1, hk1]; omega

/-- The weight block at every point is the whole weight matrix. -/
theorem proj4_right_block (c : Dev nD) (t : Fin cfg4.N) (y : S64x32.Idx) :
    (iblk4 (F := Ideal) V c 1 t : Vec Ideal S64x32 .f32) y = (V c main_arg7 : S64x32.Idx → EReal) y := by
  obtain ⟨-, -, e2, e3, -, -⟩ := proj4_idx t
  unfold iblk4
  rw [View.read_apply]
  show V c main_arg7 _ = V c main_arg7 _
  congr 1
  funext a
  apply Fin.ext
  match a with
  | ⟨0, _⟩ => show win4_1.index t (0 : Fin 2) * 64 + 1 * (y 0).val = (y 0).val; rw [e2]; omega
  | ⟨1, _⟩ => show win4_1.index t (1 : Fin 2) * 32 + 1 * (y 1).val = (y 1).val; rw [e3]; omega

/-- A block product is a block of the product: if the left block holds the rows r + p of A and the right block is W, entry j
    of the block product is entry (r + j 0, j 1) of A times W. -/
theorem proj4_block_entry (A : (Mat 100000 64).Idx → EReal) (W : (Mat 64 32).Idx → EReal)
    (x0 : Vec Ideal S10000x64 .f32) (x1 : Vec Ideal S64x32 .f32) (r : Nat)
    (h0 : ∀ (y : S10000x64.Idx) (k : S100000x64.Idx), (k 0).val = r + (y 0).val → (k 1).val = (y 1).val → x0 y = A k)
    (h1 : ∀ y : S64x32.Idx, x1 y = W y)
    (j : S10000x32.Idx) (i : S100000x32.Idx) (hi0 : (i 0).val = r + (j 0).val) (hi1 : (i 1).val = (j 1).val) :
    k4_pay1 (F := Ideal) x0 x1 j = rowsTimes (n := 100000) (k := 64) (d := 32) A W i := by
  obtain ⟨p, q, rfl⟩ : ∃ (p : Fin 10000) (q : Fin 32), j = ix2 p q := ⟨j 0, j 1, eq_ix2 j⟩
  rw [proj4_pay]
  unfold rowsTimes
  refine Finset.sum_congr rfl fun k _ => ?_
  rw [h0 (ix2 p k) (ix2 (i 0) k) hi0 rfl, h1 (ix2 k q)]
  congr 2
  funext a
  match a with
  | ⟨0, _⟩ => rfl
  | ⟨1, _⟩ => exact Fin.ext hi1.symm

/-- What point t writes back is block t of the product of the two matrices the region finds. -/
theorem proj4_flushed (c : Dev nD) (t : Fin cfg4.N) :
    (dat4 (F := Ideal) V c).flushed 2 t = ((cfg4.win 2).blk t).view.read (Elt Ideal) (rowsTimes (n := 100000) (k := 64) (d := 32) (V c main_v60) (V c main_arg7)) := by
  show (cfg4.win 2).cut (grid4.coords t) ((dat4 (F := Ideal) V c).after 2 t) = _
  rw [after4_2]
  unfold out4_2
  rw [View.canon_unit_zero proj4_zero]
  simp only [View.ld_unit_zero (S := S10000x64) proj4_zero, View.ld_unit_zero (S := S64x32) proj4_zero]
  obtain ⟨-, -, -, -, e4, e5⟩ := proj4_idx t
  funext j
  rw [View.read_apply]
  show k4_pay1 (F := Ideal) (iblk4 V c 0 t) (iblk4 V c 1 t) j = rowsTimes (n := 100000) (k := 64) (d := 32) (V c main_v60) (V c main_arg7) (((cfg4.win 2).blk t).view.emb j)
  refine proj4_block_entry _ _ _ _ (10000 * t.val) (fun y k hk0 hk1 => proj4_left_block V c t y k hk0 hk1) (fun y => proj4_right_block V c t y) j _ ?_ ?_
  · show win4_2.index t (0 : Fin 2) * 10000 + 1 * (j 0).val = 10000 * t.val + (j 0).val
    rw [e4]; omega
  · show win4_2.index t (1 : Fin 2) * 32 + 1 * (j 1).val = (j 1).val
    rw [e5]; omega

/-- An index of the result is in point t's block iff each coordinate is in the block's range on its axis. -/
theorem proj4_mem_blk (t : Fin cfg4.N) (i : S100000x32.Idx) :
    i ∈ ((cfg4.win 2).blk t).view.set ↔ ∀ a : Fin 2, win4_2.index t a * S10000x32.size a ≤ (i a).val ∧ (i a).val < win4_2.index t a * S10000x32.size a + S10000x32.size a := by
  show i ∈ ((View.whole main_v61).slice (win4_2.rect t)).set ↔ _
  rw [View.set_slice_whole, Rect.mem_set_unit]
  exact Iff.rfl

/-- Row r of the result lies in the block of point r / 10000: the ten blocks of 10000 rows cover the 100000 rows. -/
theorem proj4_cover (i : S100000x32.Idx) :
    ∃ t : Fin cfg4.N, (cfg4.win 2).flush t = true ∧ i ∈ ((cfg4.win 2).blk t).view.set := by
  have hN : cfg4.N = 10 := N_4
  have hi0 : (i 0).val < 100000 := (i 0).isLt
  have hi1 : (i 1).val < 32 := (i 1).isLt
  let t : Fin cfg4.N := ⟨(i 0).val / 10000, by rw [hN]; omega⟩
  obtain ⟨-, -, -, -, e4, e5⟩ := proj4_idx t
  have ht : t.val = (i 0).val / 10000 := rfl
  refine ⟨t, flush4_2 t, ?_⟩
  rw [proj4_mem_blk]
  intro a
  match a with
  | ⟨0, _⟩ => show win4_2.index t (0 : Fin 2) * 10000 ≤ (i 0).val ∧ (i 0).val < win4_2.index t (0 : Fin 2) * 10000 + 10000; rw [e4, ht]; omega
  | ⟨1, _⟩ => show win4_2.index t (1 : Fin 2) * 32 ≤ (i 1).val ∧ (i 1).val < win4_2.index t (1 : Fin 2) * 32 + 32; rw [e5]; omega

/-- The third dense transform: after its ten points the result array holds the rows of the second layer's output times the
    weight matrix. -/
theorem proj4_value (c : Dev nD) :
    (dat4 (F := Ideal) V c).arrAt 2 cfg4.N = rowsTimes (n := 100000) (k := 64) (d := 32) (V c main_v60) (V c main_arg7) :=
  (dat4 (F := Ideal) V c).arrAt_eq_of_cover 2 _ (fun t _ => proj4_flushed V c t) proj4_cover

end Cert.KernelIdeal.Value

end
-- ==== Proof.Bias1.lean ====
/-
  The first bias pass of the network: the array the region leaves is the aggregated rows with the one bias row
  added to every row and the sum clipped below at zero. Each grid point handles a block of 10000 rows; row r of
  the array lies in the block of point r / 10000, and an entry (r, q) of the result depends only on the entry
  (r, q) of the rows and the entry (0, q) of the bias.
-/
import proofs.«404714_j59846074303063_2_alg».proof.Proof.Gen.KernelIdeal.Frame
import proofs.«404714_j59846074303063_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Gcn

variable (V : (c : Dev nD) → (b : Ref sig .tc) → Buf (Elt Ideal) ((c : Thread nD τ).loc b))

/-- The zero offsets of a whole-buffer access. -/
theorem bias1_offsets_zero : (![0, 0] : Fin 2 → Nat) = fun _ => 0 := funext fun a => by fin_cases a <;> rfl

/-- The body's arithmetic at an entry (p, q) of a block: the block's entry plus the bias row's entry in column q,
    clipped below at zero. The bias block has one row, repeated down the 10000 rows; the zero it is compared with
    is the word 0 read as a real. -/
theorem bias1_pay_apply (b : Vec Ideal S1x64 .f32) (x : Vec Ideal S10000x64 .f32) (p : Fin 10000) (q : Fin 64) :
    k1_pay1 (F := Ideal) b x (ix2 p q) = max (x (ix2 p q) + b (ix2 0 q)) 0 := by
  unfold k1_pay1
  simp only [shapeCast_self]
  rw [maximumf_apply, addf_apply, broadcast_apply, broadcastTo_1b_ab_apply]
  show max (x (ix2 p q) + b (ix2 0 q)) (Ideal.ofBits .f32 0x00000000#32) = _
  rw [Ideal.ofBits_zero_f32]

/-- The same for the whole block, as a function of the block's index. -/
theorem bias1_pay_eq (b : Vec Ideal S1x64 .f32) (x : Vec Ideal S10000x64 .f32) :
    k1_pay1 (F := Ideal) b x = fun j : S10000x64.Idx => max (x j + b (ix2 0 (j 1))) 0 := by
  funext j
  obtain ⟨p, q, rfl⟩ : ∃ (p : Fin 10000) (q : Fin 64), j = ix2 p q := ⟨j 0, j 1, eq_ix2 j⟩
  exact bias1_pay_apply b x p q

/-- Where the three windows' blocks sit at a grid point: the row window and the result window are at block row t,
    block column 0; the bias window is always at block (0, 0). -/
theorem bias1_idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- An entry of a block against the entry of the arrays it is read from: when the block's entry j is the rows' entry k
    and the bias block's entry in j's column is the bias row's entry in k's column, the body's result at j is the
    clipped sum at k. -/
theorem bias1_entry_eq (X : S100000x64.Idx → EReal) (B : S1x64.Idx → EReal) (x : S10000x64.Idx → EReal)
    (b : S1x64.Idx → EReal) (k : S100000x64.Idx) (j : S10000x64.Idx) (hx : x j = X k)
    (hb : b (ix2 0 (j 1)) = B (ix2 0 (k 1))) :
    max (x j + b (ix2 0 (j 1))) 0 = addRowRelu (n := 100000) (d := 64) X B k := by
  unfold addRowRelu
  rw [hx, hb]

/-- What point t writes back is block t of the rows plus the bias row, clipped below at zero: the row block and the
    result block sit at the same rows of their arrays, and the bias block is the whole bias row. -/
theorem bias1_flushed_eq (c : Dev nD) (t : Fin cfg1.N) :
    (dat1 (F := Ideal) V c).flushed 2 t
      = ((cfg1.win 2).blk t).view.read (Elt Ideal) (addRowRelu (n := 100000) (d := 64) (V c main_v42) (V c main_v43)) := by
  show (cfg1.win 2).cut (grid1.coords t) ((dat1 V c).after 2 t) = _
  rw [after1_2]
  unfold out1_2
  rw [View.canon_unit_zero bias1_offsets_zero]
  simp only [View.ld_unit_zero (S := S1x64) bias1_offsets_zero, View.ld_unit_zero (S := S10000x64) bias1_offsets_zero]
  refine (bias1_pay_eq _ _).trans ?_
  obtain ⟨e0, e1, e2, e3, e4, e5⟩ := bias1_idx_facts t
  funext j
  refine bias1_entry_eq (V c main_v42) (V c main_v43) _ _ (((cfg1.win 2).blk t).view.emb j) j ?_ ?_
  · show V c main_v42 (((cfg1.win 0).blk t).view.emb j) = V c main_v42 (((cfg1.win 2).blk t).view.emb j)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · show V c main_v43 (((cfg1.win 1).blk t).view.emb (ix2 0 (j 1))) = V c main_v43 (ix2 0 ((((cfg1.win 2).blk t).view.emb j) 1))
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega

/-- An entry of the array is in point t's block iff each of its coordinates is in the block's range on its axis. -/
theorem bias1_mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v44).slice (win1_2.rect t)).set ↔ _
  rw [View.set_slice_whole, Rect.mem_set_unit]
  exact Iff.rfl

/-- Every entry is written back by some point: row r by point r / 10000. -/
theorem bias1_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e0, e1, e2, e3, e4, e5⟩ := bias1_idx_facts t
  have ht : t.val = (i 0).val / 10000 := rfl
  refine ⟨t, flush1_2 t, ?_⟩
  rw [bias1_mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The array after the region: the rows plus the bias row, clipped below at zero. -/
theorem bias1_value (c : Dev nD) :
    (dat1 (F := Ideal) V c).arrAt 2 cfg1.N = addRowRelu (n := 100000) (d := 64) (V c main_v42) (V c main_v43) :=
  (dat1 (F := Ideal) V c).arrAt_eq_of_cover 2 _ (fun t _ => bias1_flushed_eq V c t) bias1_cover

end Cert.KernelIdeal.Value

end
-- ==== Proof.Bias3.lean ====
/-
  The second bias pass of the network: the array the region leaves is the second layer's aggregated rows with that
  layer's bias row added to every row and the sum clipped below at zero. Each grid point handles a block of 10000
  rows; row r of the array lies in the block of point r / 10000, and an entry (r, q) of the result depends only on
  the entry (r, q) of the rows and the entry (0, q) of the bias.
-/
import proofs.«404714_j59846074303063_2_alg».proof.Proof.Gen.KernelIdeal.Frame
import proofs.«404714_j59846074303063_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Gcn

variable (V : (c : Dev nD) → (b : Ref sig .tc) → Buf (Elt Ideal) ((c : Thread nD τ).loc b))

/-- The zero offsets of a whole-buffer access. -/
theorem bias3_offsets_zero : (![0, 0] : Fin 2 → Nat) = fun _ => 0 := funext fun a => by fin_cases a <;> rfl

/-- The body's arithmetic at an entry (p, q) of a block: the block's entry plus the bias row's entry in column q,
    clipped below at zero. The bias block has one row, repeated down the 10000 rows; the zero it is compared with
    is the word 0 read as a real. -/
theorem bias3_pay_apply (b : Vec Ideal S1x64 .f32) (x : Vec Ideal S10000x64 .f32) (p : Fin 10000) (q : Fin 64) :
    k3_pay1 (F := Ideal) b x (ix2 p q) = max (x (ix2 p q) + b (ix2 0 q)) 0 := by
  unfold k3_pay1
  simp only [shapeCast_self]
  rw [maximumf_apply, addf_apply, broadcast_apply, broadcastTo_1b_ab_apply]
  show max (x (ix2 p q) + b (ix2 0 q)) (Ideal.ofBits .f32 0x00000000#32) = _
  rw [Ideal.ofBits_zero_f32]

/-- The same for the whole block, as a function of the block's index. -/
theorem bias3_pay_eq (b : Vec Ideal S1x64 .f32) (x : Vec Ideal S10000x64 .f32) :
    k3_pay1 (F := Ideal) b x = fun j : S10000x64.Idx => max (x j + b (ix2 0 (j 1))) 0 := by
  funext j
  obtain ⟨p, q, rfl⟩ : ∃ (p : Fin 10000) (q : Fin 64), j = ix2 p q := ⟨j 0, j 1, eq_ix2 j⟩
  exact bias3_pay_apply b x p q

/-- Where the three windows' blocks sit at a grid point: the row window and the result window are at block row t,
    block column 0; the bias window is always at block (0, 0). -/
theorem bias3_idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- An entry of a block against the entry of the arrays it is read from: when the block's entry j is the rows' entry k
    and the bias block's entry in j's column is the bias row's entry in k's column, the body's result at j is the
    clipped sum at k. -/
theorem bias3_entry_eq (X : S100000x64.Idx → EReal) (B : S1x64.Idx → EReal) (x : S10000x64.Idx → EReal)
    (b : S1x64.Idx → EReal) (k : S100000x64.Idx) (j : S10000x64.Idx) (hx : x j = X k)
    (hb : b (ix2 0 (j 1)) = B (ix2 0 (k 1))) :
    max (x j + b (ix2 0 (j 1))) 0 = addRowRelu (n := 100000) (d := 64) X B k := by
  unfold addRowRelu
  rw [hx, hb]

/-- What point t writes back is block t of the rows plus the bias row, clipped below at zero: the row block and the
    result block sit at the same rows of their arrays, and the bias block is the whole bias row. -/
theorem bias3_flushed_eq (c : Dev nD) (t : Fin cfg3.N) :
    (dat3 (F := Ideal) V c).flushed 2 t
      = ((cfg3.win 2).blk t).view.read (Elt Ideal) (addRowRelu (n := 100000) (d := 64) (V c main_v58) (V c main_v59)) := by
  show (cfg3.win 2).cut (grid3.coords t) ((dat3 V c).after 2 t) = _
  rw [after3_2]
  unfold out3_2
  rw [View.canon_unit_zero bias3_offsets_zero]
  simp only [View.ld_unit_zero (S := S1x64) bias3_offsets_zero, View.ld_unit_zero (S := S10000x64) bias3_offsets_zero]
  refine (bias3_pay_eq _ _).trans ?_
  obtain ⟨e0, e1, e2, e3, e4, e5⟩ := bias3_idx_facts t
  funext j
  refine bias3_entry_eq (V c main_v58) (V c main_v59) _ _ (((cfg3.win 2).blk t).view.emb j) j ?_ ?_
  · show V c main_v58 (((cfg3.win 0).blk t).view.emb j) = V c main_v58 (((cfg3.win 2).blk t).view.emb j)
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  · show V c main_v59 (((cfg3.win 1).blk t).view.emb (ix2 0 (j 1))) = V c main_v59 (ix2 0 ((((cfg3.win 2).blk t).view.emb j) 1))
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega

/-- An entry of the array is in point t's block iff each of its coordinates is in the block's range on its axis. -/
theorem bias3_mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v60).slice (win3_2.rect t)).set ↔ _
  rw [View.set_slice_whole, Rect.mem_set_unit]
  exact Iff.rfl

/-- Every entry is written back by some point: row r by point r / 10000. -/
theorem bias3_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨e0, e1, e2, e3, e4, e5⟩ := bias3_idx_facts t
  have ht : t.val = (i 0).val / 10000 := rfl
  refine ⟨t, flush3_2 t, ?_⟩
  rw [bias3_mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The array after the region: the rows plus the bias row, clipped below at zero. -/
theorem bias3_value (c : Dev nD) :
    (dat3 (F := Ideal) V c).arrAt 2 cfg3.N = addRowRelu (n := 100000) (d := 64) (V c main_v58) (V c main_v59) :=
  (dat3 (F := Ideal) V c).arrAt_eq_of_cover 2 _ (fun t _ => bias3_flushed_eq V c t) bias3_cover

end Cert.KernelIdeal.Value

end
-- ==== Proof.Bias5.lean ====
/-
  The last bias pass of the network: the array the region leaves is the third layer's aggregated rows, 32 wide, with
  that layer's bias row added to every row; nothing is clipped. Each grid point handles a block of 10000 rows; row r
  of the array lies in the block of point r / 10000, and an entry (r, q) of the result depends only on the entry
  (r, q) of the rows and the entry (0, q) of the bias.
-/
import proofs.«404714_j59846074303063_2_alg».proof.Proof.Gen.KernelIdeal.Frame
import proofs.«404714_j59846074303063_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Gcn

variable (V : (c : Dev nD) → (b : Ref sig .tc) → Buf (Elt Ideal) ((c : Thread nD τ).loc b))

/-- The zero offsets of a whole-buffer access. -/
theorem bias5_offsets_zero : (![0, 0] : Fin 2 → Nat) = fun _ => 0 := funext fun a => by fin_cases a <;> rfl

/-- The body's arithmetic at an entry (p, q) of a block: the block's entry plus the bias row's entry in column q.
    The bias block has one row, repeated down the 10000 rows. -/
theorem bias5_pay_apply (b : Vec Ideal S1x32 .f32) (x : Vec Ideal S10000x32 .f32) (p : Fin 10000) (q : Fin 32) :
    k5_pay1 (F := Ideal) b x (ix2 p q) = x (ix2 p q) + b (ix2 0 q) := by
  unfold k5_pay1
  simp only [shapeCast_self]
  rw [addf_apply, broadcastTo_1b_ab_apply]

/-- The same for the whole block, as a function of the block's index. -/
theorem bias5_pay_eq (b : Vec Ideal S1x32 .f32) (x : Vec Ideal S10000x32 .f32) :
    k5_pay1 (F := Ideal) b x = fun j : S10000x32.Idx => x j + b (ix2 0 (j 1)) := by
  funext j
  obtain ⟨p, q, rfl⟩ : ∃ (p : Fin 10000) (q : Fin 32), j = ix2 p q := ⟨j 0, j 1, eq_ix2 j⟩
  exact bias5_pay_apply b x p q

/-- Where the three windows' blocks sit at a grid point: the row window and the result window are at block row t,
    block column 0; the bias window is always at block (0, 0). -/
theorem bias5_idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- An entry of a block against the entry of the arrays it is read from: when the block's entry j is the rows' entry k
    and the bias block's entry in j's column is the bias row's entry in k's column, the body's result at j is the
    sum at k. -/
theorem bias5_entry_eq (X : S100000x32.Idx → EReal) (B : S1x32.Idx → EReal) (x : S10000x32.Idx → EReal)
    (b : S1x32.Idx → EReal) (k : S100000x32.Idx) (j : S10000x32.Idx) (hx : x j = X k)
    (hb : b (ix2 0 (j 1)) = B (ix2 0 (k 1))) :
    x j + b (ix2 0 (j 1)) = addRow (n := 100000) (d := 32) X B k := by
  unfold addRow
  rw [hx, hb]

/-- What point t writes back is block t of the rows plus the bias row: the row block and the result block sit at the
    same rows of their arrays, and the bias block is the whole bias row. -/
theorem bias5_flushed_eq (c : Dev nD) (t : Fin cfg5.N) :
    (dat5 (F := Ideal) V c).flushed 2 t
      = ((cfg5.win 2).blk t).view.read (Elt Ideal) (addRow (n := 100000) (d := 32) (V c main_v74) (V c main_v75)) := by
  show (cfg5.win 2).cut (grid5.coords t) ((dat5 V c).after 2 t) = _
  rw [after5_2]
  unfold out5_2
  rw [View.canon_unit_zero bias5_offsets_zero]
  simp only [View.ld_unit_zero (S := S1x32) bias5_offsets_zero, View.ld_unit_zero (S := S10000x32) bias5_offsets_zero]
  refine (bias5_pay_eq _ _).trans ?_
  obtain ⟨e0, e1, e2, e3, e4, e5⟩ := bias5_idx_facts t
  funext j
  refine bias5_entry_eq (V c main_v74) (V c main_v75) _ _ (((cfg5.win 2).blk t).view.emb j) j ?_ ?_
  · show V c main_v74 (((cfg5.win 0).blk t).view.emb j) = V c main_v74 (((cfg5.win 2).blk t).view.emb j)
    refine congrArg _ (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 32 + 1 * (j 1).val = win5_2.index t (1 : Fin 2) * 32 + 1 * (j 1).val; omega
  · show V c main_v75 (((cfg5.win 1).blk t).view.emb (ix2 0 (j 1))) = V c main_v75 (ix2 0 ((((cfg5.win 2).blk t).view.emb j) 1))
    refine congrArg _ (funext fun a => Fin.ext ?_)
    match a with
    | ⟨0, _⟩ => show win5_1.index t (0 : Fin 2) * 1 + 1 * 0 = 0; omega
    | ⟨1, _⟩ => show win5_1.index t (1 : Fin 2) * 32 + 1 * (j 1).val = win5_2.index t (1 : Fin 2) * 32 + 1 * (j 1).val; omega

/-- An entry of the array is in point t's block iff each of its coordinates is in the block's range on its axis. -/
theorem bias5_mem_blk (t : Fin cfg5.N) (i : S100000x32.Idx) :
    i ∈ ((cfg5.win 2).blk t).view.set ↔ ∀ a : Fin 2, win5_2.index t a * S10000x32.size a ≤ (i a).val ∧ (i a).val < win5_2.index t a * S10000x32.size a + S10000x32.size a := by
  show i ∈ ((View.whole main_v76).slice (win5_2.rect t)).set ↔ _
  rw [View.set_slice_whole, Rect.mem_set_unit]
  exact Iff.rfl

/-- Every entry is written back by some point: row r by point r / 10000. -/
theorem bias5_cover (i : S100000x32.Idx) :
    ∃ t : Fin cfg5.N, (cfg5.win 2).flush t = true ∧ i ∈ ((cfg5.win 2).blk t).view.set := by
  have hi0 : (i 0).val < 100000 := (i 0).isLt
  have hi1 : (i 1).val < 32 := (i 1).isLt
  have hN : cfg5.N = 10 := N_5
  let t : Fin cfg5.N := ⟨(i 0).val / 10000, by rw [hN]; omega⟩
  obtain ⟨e0, e1, e2, e3, e4, e5⟩ := bias5_idx_facts t
  have ht : t.val = (i 0).val / 10000 := rfl
  refine ⟨t, flush5_2 t, ?_⟩
  rw [bias5_mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 32 ≤ (i 1).val ∧ (i 1).val < win5_2.index t (1 : Fin 2) * 32 + 32; omega

/-- The array after the region: the rows plus the bias row. -/
theorem bias5_value (c : Dev nD) :
    (dat5 (F := Ideal) V c).arrAt 2 cfg5.N = addRow (n := 100000) (d := 32) (V c main_v74) (V c main_v75) :=
  (dat5 (F := Ideal) V c).arrAt_eq_of_cover 2 _ (fun t _ => bias5_flushed_eq V c t) bias5_cover

end Cert.KernelIdeal.Value

end
-- ==== Proof.Pool6.lean ====
/-
  The value of the pooling region's output array. The region walks the 100000 rows of h in ten row blocks of 10000;
  its one output block, the whole [256, 32] array, is zeroed at the first point and at every point gains the product of
  the transposed one-hot matrix of the block's segment words with the block of h. Over the extended reals a one-hot
  entry is 1 or 0, so entry (g, f) of a point's product is the sum of the entries f of the block's rows whose segment
  word is g; the ten partial sums, joined by associativity of addition, are the sum over all rows: the segment sum.
-/
import proofs.«404714_j59846074303063_2_alg».proof.Proof.Gen.KernelIdeal.Frame
import proofs.«404714_j59846074303063_2_alg».proof.Proof.Spec
import Idealize.ShloMosaic.Lib.Pipeline.Value
import Idealize.ShloMosaic.Lib.ValueIdx
import Idealize.ShloMosaic.PureOps.Ideal.Laws
import Mathlib.Algebra.BigOperators.Fin

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Gcn

/-! ## What each case of the body leaves in the output block -/

section Pieces
variable {F : FTy → Type} [FloatOps F]

/-- The zero offsets of a whole-block access, as a constant function. -/
theorem pool6_hz : (![0, 0] : Fin 2 → Nat) = fun _ => 0 := funext fun a => by fin_cases a <;> rfl

/-- At a later point the body leaves, in the output block holding `xo`, the payload of its one covering store: `xo`
    plus the product of the transposed one-hot block with the row block. -/
theorem pool6_out_B (c : Dev nD) (i : grid6.Coords) (a1 : Memref sig .tc .vmem S10000x32 .f32) (h1 : a1.IsWhole)
    (a2 : Memref sig .tc .vmem S10000x1 .i32) (h2 : a2.IsWhole) (a3 : Memref sig .tc .vmem S256x32 .f32) (h3 : a3.IsWhole)
    (hc : ¬cond6_0 i) (x0 : Vec F S10000x32 .f32) (x1 : Vec F S10000x1 .i32) (xo : Vec F S256x32 .f32) :
    out6_B_2 c i a1 h1 a2 h2 a3 h3 hc x0 x1 xo = k6_pay2 x0 x1 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero (S := S256x32) pool6_hz]
  simp only [View.readAt_eq_ld, h1.read_unread, h2.read_unread, h3.read_unread,
    View.ld_unit_zero (S := S10000x32) pool6_hz, View.ld_unit_zero (S := S10000x1) pool6_hz,
    View.ld_unit_zero (S := S256x32) pool6_hz]

/-- At the first point the body stores the zero block, reads it back, and leaves the same payload over the zero block. -/
theorem pool6_out_A (c : Dev nD) (i : grid6.Coords) (a1 : Memref sig .tc .vmem S10000x32 .f32) (h1 : a1.IsWhole)
    (a2 : Memref sig .tc .vmem S10000x1 .i32) (h2 : a2.IsWhole) (a3 : Memref sig .tc .vmem S256x32 .f32) (h3 : a3.IsWhole)
    (hc : cond6_0 i) (x0 : Vec F S10000x32 .f32) (x1 : Vec F S10000x1 .i32) :
    out6_A_2 c i a1 h1 a2 h2 a3 h3 hc x0 x1 = k6_pay2 x0 x1 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S256x32) pool6_hz, View.readCov_unit_zero (S := S256x32) _ pool6_hz]
  simp only [View.readAt_eq_ld, h1.read_unread, h2.read_unread,
    View.ld_unit_zero (S := S10000x32) pool6_hz, View.ld_unit_zero (S := S10000x1) pool6_hz]

end Pieces

/-! ## The payload at an index, over the extended reals -/

/-- In the product both contracted axes are axis 0: the left operand is read at (contraction index, output row) … -/
theorem pool6_lhs_0 (i : S256x32.Idx) (q : dot_S10000x256_S10000x32_S256x32_0_0_1_1_n_n.contr.Idx) :
    (dot_S10000x256_S10000x32_S256x32_0_0_1_1_n_n.lhsIdx i q 0).val = (q ⟨0, by decide⟩).val :=
  dot_S10000x256_S10000x32_S256x32_0_0_1_1_n_n.lhsIdx_val_of_single rfl i q
theorem pool6_lhs_1 (i : S256x32.Idx) (q : dot_S10000x256_S10000x32_S256x32_0_0_1_1_n_n.contr.Idx) :
    (dot_S10000x256_S10000x32_S256x32_0_0_1_1_n_n.lhsIdx i q 1).val = (i 0).val := by
  unfold DotDims.lhsIdx
  rw [dif_neg (show ¬(1 : Fin S10000x256.rank) ∈ dot_S10000x256_S10000x32_S256x32_0_0_1_1_n_n.lhsBatch by decide), dif_pos (show (1 : Fin S10000x256.rank) ∈ dot_S10000x256_S10000x32_S256x32_0_0_1_1_n_n.lhsNonContracting by decide)]
  rfl
/-- … and the right operand at (contraction index, output column). -/
theorem pool6_rhs_0 (i : S256x32.Idx) (q : dot_S10000x256_S10000x32_S256x32_0_0_1_1_n_n.contr.Idx) :
    (dot_S10000x256_S10000x32_S256x32_0_0_1_1_n_n.rhsIdx i q 0).val = (q ⟨0, by decide⟩).val :=
  dot_S10000x256_S10000x32_S256x32_0_0_1_1_n_n.rhsIdx_val_of_single rfl i q
theorem pool6_rhs_1 (i : S256x32.Idx) (q : dot_S10000x256_S10000x32_S256x32_0_0_1_1_n_n.contr.Idx) :
    (dot_S10000x256_S10000x32_S256x32_0_0_1_1_n_n.rhsIdx i q 1).val = (i 1).val := by
  unfold DotDims.rhsIdx
  rw [dif_neg (show ¬(1 : Fin S10000x32.rank) ∈ dot_S10000x256_S10000x32_S256x32_0_0_1_1_n_n.rhsBatch by decide), dif_pos (show (1 : Fin S10000x32.rank) ∈ dot_S10000x256_S10000x32_S256x32_0_0_1_1_n_n.rhsNonContracting by decide)]
  rfl

/-- A one-hot entry: the comparison bit of two words, widened and read as a signed integer, is exactly 1 or 0. -/
theorem pool6_onehot (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  unfold IntOp.cmpi
  by_cases h : a = b
  · rw [if_pos h, show (a == b) = true from beq_iff_eq.mpr h,
      show ((BitVec.ofBool true).setWidth 32).toInt = 1 from by decide]
    simp
  · rw [if_neg h, show (a == b) = false from beq_eq_false_iff_ne.mpr h,
      show ((BitVec.ofBool false).setWidth 32).toInt = 0 from by decide]
    simp

/-- THE PAYLOAD AT (g, f): the block's entry plus the sum, over the 10000 rows r of the row block, of row r's entry f
    when row r's segment word is g (the one-hot entry is 1 or 0, and 1 * x = x, 0 * x = 0 for every extended real). -/
theorem pool6_pay2_apply (v3 : Vec Ideal S10000x32 .f32) (v6 : Vec Ideal S10000x1 .i32) (v15 : Vec Ideal S256x32 .f32)
    (g : Fin 256) (f : Fin 32) :
    k6_pay2 (F := Ideal) v3 v6 v15 (ix2 g f)
      = v15 (ix2 g f) + ∑ r : Fin 10000, (if v6 (ix2 r 0) = BitVec.ofNat 32 g.val then v3 (ix2 r f) else 0) := by
  unfold k6_pay2
  dsimp only
  simp only [shapeCast_self]
  refine congrArg (v15 (ix2 g f) + ·) ?_
  refine (Ideal.matmul_constant_zero_apply dot_S10000x256_S10000x32_S256x32_0_0_1_1_n_n none _ _ (ix2 g f)).trans ?_
  rw [← Equiv.sum_comp (contrEquiv1 dot_S10000x256_S10000x32_S256x32_0_0_1_1_n_n 10000 rfl rfl).symm]
  refine Finset.sum_congr rfl fun r _ => ?_
  have hk := contrEquiv1_symm_val dot_S10000x256_S10000x32_S256x32_0_0_1_1_n_n 10000 rfl rfl r
  have el : dot_S10000x256_S10000x32_S256x32_0_0_1_1_n_n.lhsIdx (ix2 g f) ((contrEquiv1 dot_S10000x256_S10000x32_S256x32_0_0_1_1_n_n 10000 rfl rfl).symm r) = ix2 r g := funext fun a => Fin.ext (by
    match a with
    | ⟨0, _⟩ => exact (pool6_lhs_0 _ _).trans hk
    | ⟨1, _⟩ => exact pool6_lhs_1 _ _)
  have er : dot_S10000x256_S10000x32_S256x32_0_0_1_1_n_n.rhsIdx (ix2 g f) ((contrEquiv1 dot_S10000x256_S10000x32_S256x32_0_0_1_1_n_n 10000 rfl rfl).symm r) = ix2 r f := funext fun a => Fin.ext (by
    match a with
    | ⟨0, _⟩ => exact (pool6_rhs_0 _ _).trans hk
    | ⟨1, _⟩ => exact pool6_rhs_1 _ _)
  rw [el, er]
  have hb : broadcastTo S10000x256 v6 broadcasts_S10000x1_S10000x256 (ix2 r g) = v6 (ix2 r 0) :=
    broadcastTo_apply v6 broadcasts_S10000x1_S10000x256 (ix2 r g) (ix2 r 0)
      (fun a => match a with | ⟨0, _⟩ => rfl | ⟨1, _⟩ => rfl)
  have hi : iota Kind.tc S10000x256 32 [1] iota_S10000x256_d1_w32 (ix2 r g) = BitVec.ofNat 32 g.val :=
    iota_single_apply Kind.tc S10000x256 32 1 iota_S10000x256_d1_w32 (ix2 r g)
  show FloatOps.sitofp (F := Ideal) .f32
      ((IntOp.cmpi .eq (broadcastTo S10000x256 v6 broadcasts_S10000x1_S10000x256 (ix2 r g))
        (iota Kind.tc S10000x256 32 [1] iota_S10000x256_d1_w32 (ix2 r g))).setWidth 32) * v3 (ix2 r f) = _
  rw [hb, hi, pool6_onehot, ite_mul, one_mul, zero_mul]

/-! ## The blocks of the two input arrays -/

variable (V : (c : Dev nD) → (b : Ref sig .tc) → Buf (Elt Ideal) ((c : Thread nD τ).loc b))

/-- The row block of h and the block of segment words at point `t`, and the two arrays, each named at its literal type. -/
abbrev pool6_hblk (c : Dev nD) (t : Fin cfg6.N) : Vec Ideal S10000x32 .f32 := iblk6 (F := Ideal) V c 0 t
abbrev pool6_sblk (c : Dev nD) (t : Fin cfg6.N) : Vec Ideal S10000x1 .i32 := iblk6 (F := Ideal) V c 1 t
abbrev pool6_harr (c : Dev nD) : Vec Ideal S100000x32 .f32 := V c main_v76
abbrev pool6_sarr (c : Dev nD) : Vec Ideal S100000x1 .i32 := V c main_v77

/-- Where the windows sit, checked over the ten points: at point `t` both input windows are at row block `t`, column
    block 0, and the output window stays at block (0, 0). -/
theorem pool6_idx : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Row r of block `t` of h is row 10000 * t + r of h. -/
theorem pool6_hblk_apply (c : Dev nD) (t : Fin cfg6.N) (r : Fin 10000) (f : Fin 32) (h : 10000 * t.val + r.val < 100000) :
    pool6_hblk V c t (ix2 r f) = pool6_harr V c (ix2 ⟨10000 * t.val + r.val, h⟩ f) := by
  obtain ⟨e0, e1, -, -, -, -⟩ := pool6_idx t
  show V c main_v76 (((cfg6.win 0).blk t).view.emb (ix2 r f)) = V c main_v76 (ix2 ⟨10000 * t.val + r.val, h⟩ f)
  refine congrArg (V c main_v76) (funext fun a => Fin.ext ?_)
  match a with
  | ⟨0, _⟩ => show win6_0.index t (0 : Fin 2) * 10000 + 1 * r.val = 10000 * t.val + r.val; omega
  | ⟨1, _⟩ => show win6_0.index t (1 : Fin 2) * 32 + 1 * f.val = f.val; omega

/-- Row r of block `t` of the segment words is row 10000 * t + r of the segment words. -/
theorem pool6_sblk_apply (c : Dev nD) (t : Fin cfg6.N) (r : Fin 10000) (h : 10000 * t.val + r.val < 100000) :
    pool6_sblk V c t (ix2 r 0) = pool6_sarr V c (ix2 ⟨10000 * t.val + r.val, h⟩ 0) := by
  obtain ⟨-, -, e0, e1, -, -⟩ := pool6_idx t
  show V c main_v77 (((cfg6.win 1).blk t).view.emb (ix2 r 0)) = V c main_v77 (ix2 ⟨10000 * t.val + r.val, h⟩ 0)
  refine congrArg (V c main_v77) (funext fun a => Fin.ext ?_)
  match a with
  | ⟨0, _⟩ => show win6_1.index t (0 : Fin 2) * 10000 + 1 * r.val = 10000 * t.val + r.val; omega
  | ⟨1, _⟩ => show win6_1.index t (1 : Fin 2) * 1 + 1 * (0 : Fin 1).val = (0 : Fin 1).val; omega

/-! ## The running sum -/

/-- What row `t` of h adds to entry (g, f): its entry f when its segment word is g, nothing otherwise (and nothing past
    the last row, so that the rows can be counted by a natural number). -/
def pool6_term (c : Dev nD) (g : Fin 256) (f : Fin 32) (t : ℕ) : EReal :=
  if h : t < 100000 then
    (if pool6_sarr V c (ix2 ⟨t, h⟩ 0) = BitVec.ofNat 32 g.val then pool6_harr V c (ix2 ⟨t, h⟩ f) else 0)
  else 0

/-- The sum a point adds, over the rows of its blocks, is the sum of the terms of rows 10000 * t … 10000 * t + 9999. -/
theorem pool6_block_sum (c : Dev nD) (t : Fin cfg6.N) (g : Fin 256) (f : Fin 32) :
    ∑ r : Fin 10000, (if pool6_sblk V c t (ix2 r 0) = BitVec.ofNat 32 g.val then pool6_hblk V c t (ix2 r f) else 0)
      = ∑ x ∈ Finset.range 10000, pool6_term V c g f (10000 * t.val + x) := by
  have hN : t.val < 10 := lt_of_lt_of_eq t.isLt (show cfg6.N = 10 from N_6)
  rw [Finset.sum_range]
  refine Finset.sum_congr rfl fun r _ => ?_
  have hr : 10000 * t.val + r.val < 100000 := by have := r.isLt; omega
  rw [pool6_sblk_apply V c t r hr, pool6_hblk_apply V c t r f hr]
  unfold pool6_term
  rw [dif_pos hr]

/-- THE INVARIANT: after point n the output block holds, at (g, f), the sum of the terms of the rows below
    10000 * (n + 1) — by induction on the point; addition of extended reals is associative, so each point's sum joins
    the sum before it. -/
theorem pool6_outsAt (c : Dev nD) : ∀ (n : ℕ) (h : n < cfg6.N) (g : Fin 256) (f : Fin 32),
    outsAt6 (F := Ideal) V c n h (ix2 g f) = ∑ t ∈ Finset.range (10000 * (n + 1)), pool6_term V c g f t
  | 0, h, g, f => by
    refine (congrFun (outsAt6_A (F := Ideal) V c ⟨0, h⟩ rfl) (ix2 g f)).trans ?_
    refine (congrFun (pool6_out_A (F := Ideal) c (grid6.coords ⟨0, h⟩) (ms6_0 ⟨0, h⟩) (hs6_0 ⟨0, h⟩) (ms6_1 ⟨0, h⟩) (hs6_1 ⟨0, h⟩)
      (ms6_2 ⟨0, h⟩) (hs6_2 ⟨0, h⟩) _ (pool6_hblk V c ⟨0, h⟩) (pool6_sblk V c ⟨0, h⟩)) (ix2 g f)).trans ?_
    refine (pool6_pay2_apply (pool6_hblk V c ⟨0, h⟩) (pool6_sblk V c ⟨0, h⟩) (k6_pay1 (F := Ideal)) g f).trans ?_
    rw [pool6_block_sum V c ⟨0, h⟩ g f]
    show Ideal.ofBits .f32 0x00000000#32 + ∑ x ∈ Finset.range 10000, pool6_term V c g f (10000 * 0 + x)
      = ∑ t ∈ Finset.range (10000 * (0 + 1)), pool6_term V c g f t
    rw [Ideal.ofBits_zero_f32, zero_add]
    simp only [Nat.mul_zero, Nat.zero_add, Nat.mul_one]
  | n + 1, h, g, f => by
    have hN : cfg6.N = 10 := N_6
    have hB : ¬(⟨n + 1, h⟩ : Fin cfg6.N).val % 10 = 0 := by dsimp only; omega
    refine (congrFun (outsAt6_B (F := Ideal) V c ⟨n + 1, h⟩ hB) (ix2 g f)).trans ?_
    refine (congrFun (pool6_out_B (F := Ideal) c (grid6.coords ⟨n + 1, h⟩) (ms6_0 ⟨n + 1, h⟩) (hs6_0 ⟨n + 1, h⟩) (ms6_1 ⟨n + 1, h⟩)
      (hs6_1 ⟨n + 1, h⟩) (ms6_2 ⟨n + 1, h⟩) (hs6_2 ⟨n + 1, h⟩) _ (pool6_hblk V c ⟨n + 1, h⟩) (pool6_sblk V c ⟨n + 1, h⟩)
      (outsAt6 (F := Ideal) V c n (Nat.lt_of_succ_lt h))) (ix2 g f)).trans ?_
    refine (pool6_pay2_apply (pool6_hblk V c ⟨n + 1, h⟩) (pool6_sblk V c ⟨n + 1, h⟩)
      (outsAt6 (F := Ideal) V c n (Nat.lt_of_succ_lt h)) g f).trans ?_
    rw [pool6_outsAt c n (Nat.lt_of_succ_lt h) g f, pool6_block_sum V c ⟨n + 1, h⟩ g f]
    show _ + ∑ x ∈ Finset.range 10000, pool6_term V c g f (10000 * (n + 1) + x) = _
    rw [show 10000 * (n + 1 + 1) = 10000 * (n + 1) + 10000 from by omega, Finset.sum_range_add]

/-- After the last point the block holds the sum over all 100000 rows: the segment sum. -/
theorem pool6_last (c : Dev nD) (h9 : 9 < cfg6.N) :
    outsAt6 (F := Ideal) V c 9 h9 = segSum (n := 100000) (g := 256) (d := 32) (V c main_v76) (V c main_v77) := by
  funext j
  obtain ⟨g, f, rfl⟩ : ∃ (g : Fin 256) (f : Fin 32), j = ix2 g f := ⟨j 0, j 1, eq_ix2 j⟩
  rw [pool6_outsAt V c 9 h9 g f]
  show ∑ t ∈ Finset.range 100000, pool6_term V c g f t
    = ∑ t : Fin 100000, (if pool6_sarr V c (ix2 t 0) = BitVec.ofNat 32 g.val then pool6_harr V c (ix2 t f) else 0)
  rw [Finset.sum_range]
  refine Finset.sum_congr rfl fun t _ => ?_
  unfold pool6_term
  exact dif_pos t.isLt

/-! ## From the block to the array -/

/-- The one write-back, after the last point, writes the segment sum: the output's one block, at block index (0, 0) and of
    the array's own size, read through zero offsets is the array. -/
theorem pool6_flushed (c : Dev nD) (t : Fin cfg6.N) (hf : (cfg6.win 2).flush t = true) :
    (dat6 (F := Ideal) V c).flushed 2 t
      = ((cfg6.win 2).blk t).view.read (Elt Ideal) (segSum (n := 100000) (g := 256) (d := 32) (V c main_v76) (V c main_v77)) := by
  have hN : cfg6.N = 10 := N_6
  have h9 : t.val = 9 := by have := (flush6_2 t).mp hf; have := t.isLt; omega
  obtain ⟨-, -, -, -, e0, e1⟩ := pool6_idx t
  obtain ⟨n, hn⟩ := t
  dsimp only at h9
  subst h9
  show (cfg6.win 2).cut (grid6.coords ⟨9, hn⟩) ((dat6 (F := Ideal) V c).after 2 ⟨9, hn⟩) = _
  rw [after6_2]
  show (cfg6.win 2).cut (grid6.coords ⟨9, hn⟩) (outsAt6 (F := Ideal) V c 9 hn) = _
  rw [pool6_last V c hn]
  have hz' : (fun a => win6_2.index ⟨9, hn⟩ a * main_v78.ty.shape.size a) = fun _ => 0 := funext fun a => by
    match a with
    | ⟨0, _⟩ => show win6_2.index ⟨9, hn⟩ (0 : Fin 2) * 256 = 0; rw [e0]
    | ⟨1, _⟩ => show win6_2.index ⟨9, hn⟩ (1 : Fin 2) * 32 = 0; rw [e1]
  exact (Memref.read_access_unit_zero (Elt Ideal) main_v78 hz' (fun a => by rw [congrFun hz' a]; simp)
    (segSum (n := 100000) (g := 256) (d := 32) (V c main_v76) (V c main_v77))).symm

/-- THE VALUE of the pooling region's output array: entry (g, f) is the sum of the entries f of the rows of h whose
    segment word is g. The last point is the one that writes back, and its block is the whole array. -/
theorem pool6_value (c : Dev nD) :
    (dat6 (F := Ideal) V c).arrAt 2 cfg6.N = segSum (n := 100000) (g := 256) (d := 32) (V c main_v76) (V c main_v77) :=
  (dat6 (F := Ideal) V c).arrAt_eq_of_cover 2 (segSum (n := 100000) (g := 256) (d := 32) (V c main_v76) (V c main_v77))
    (pool6_flushed V c) fun i =>
    ⟨t6_9, (flush6_2 t6_9).mpr rfl, by
      obtain ⟨-, -, -, -, e0, e1⟩ := pool6_idx t6_9
      show i ∈ ((View.whole main_v78).slice (win6_2.rect t6_9)).set
      rw [View.set_slice_whole, Rect.mem_set_unit]
      intro a
      have h0 : (i 0 : Nat) < 256 := (i 0).isLt
      have h1 : (i 1 : Nat) < 32 := (i 1).isLt
      match a with
      | ⟨0, _⟩ => show win6_2.index t6_9 (0 : Fin 2) * 256 ≤ (i 0 : Nat) ∧ (i 0 : Nat) < win6_2.index t6_9 (0 : Fin 2) * 256 + 256
                  omega
      | ⟨1, _⟩ => show win6_2.index t6_9 (1 : Fin 2) * 32 ≤ (i 1 : Nat) ∧ (i 1 : Nat) < win6_2.index t6_9 (1 : Fin 2) * 32 + 32
                  omega⟩

end Cert.KernelIdeal.Value

end
-- ==== Proof.LibIndexRead.lean ====
/-
  An accumulating scatter and a row gather, read at an index.

  For the dimension numbers jnp's `x.at[idx].add(u)`, `segment_sum` and `x[idx]` print along axis 0 — the index
  vector an [E, 1] column of words, one word per update or per gathered row —, the update e lands on row p exactly
  when word e, read signed, is p, and the gathered row e is the operand's row named by word e when that word
  is a row of the operand.
-/
import Idealize.ShloMosaic.PureOps.Ideal
import Idealize.ShloMosaic.Lib.ValueIdx

noncomputable section

namespace Cert.Sage.IndexRead

open Idealize.ShloMosaic Idealize.ShloMosaic.ValueIdx

/-- An update lands at `i` exactly when, on every axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

/-- The start of update `j` on the operand's one axis is word `j`, read signed. -/
private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The operand's one axis is inserted: no window coordinate. -/
private theorem vec_window (j : (⟨1, ![E]⟩ : Shape).Idx) : d.window j 0 = 0 := by
  obtain ⟨uw, iw, sd, iv, wf⟩ := d
  simp only at h1 h2 h3 h4
  subst h1 h2 h3 h4
  rfl

/-- Update `j` lands on entry `p` exactly when word `j`, read signed, is `p`. -/
private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

/-- Accumulating a vector of E updates into a vector of N entries: entry p is what it was plus the updates whose
    word is p. -/
theorem scatterAdd_vec {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : (⟨2, ![E, 1]⟩ : Shape).Idx → BitVec 32)
    (upd : (⟨1, ![E]⟩ : Shape).Idx → EReal) (p : Fin N) :
    Ideal.hostScatterAdd d x idx upd (ix1 p)
      = x (ix1 p) + ∑ e ∈ Finset.univ.filter (fun e : Fin E => (idx (ix2 e 0)).toInt = (p.val : Int)), upd (ix1 e) := by
  unfold Ideal.hostScatterAdd
  congr 1
  -- the update indices are the words' positions
  refine Finset.sum_nbij' (fun j => j 0) (fun e => ix1 e) ?_ ?_ ?_ ?_ ?_
  · intro j hj
    exact Finset.mem_filter.mpr ⟨Finset.mem_univ _, (vec_lands d h1 h2 h3 h4 idx j p).mp (Finset.mem_filter.mp hj).2⟩
  · intro e he
    exact Finset.mem_filter.mpr ⟨Finset.mem_univ _, (vec_lands d h1 h2 h3 h4 idx (ix1 e) p).mpr (Finset.mem_filter.mp he).2⟩
  · intro j _
    exact (eq_ix1 j).symm
  · intro e _
    rfl
  · intro j _
    exact congrArg upd (eq_ix1 j)

section Rows
variable {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
include h1 h2 h3 h4

/-- The start of update `j` on the operand's row axis is word `j 0`, read signed. -/
private theorem rows_start0 (idx : (⟨2, ![E, 1]⟩ : Shape).Idx → BitVec 32) (j : (⟨2, ![E, D]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The column axis is not a scattered one: its start is 0. -/
private theorem rows_start1 (idx : (⟨2, ![E, 1]⟩ : Shape).Idx → BitVec 32) (j : (⟨2, ![E, D]⟩ : Shape).Idx) :
    d.start j idx 1 = 0 := by
  obtain ⟨uw, iw, sd, iv, wf⟩ := d
  simp only at h1 h2 h3 h4
  subst h1 h2 h3 h4
  rfl

/-- The row axis is inserted: no window coordinate. -/
private theorem rows_window0 (j : (⟨2, ![E, D]⟩ : Shape).Idx) : d.window j 0 = 0 := by
  obtain ⟨uw, iw, sd, iv, wf⟩ := d
  simp only at h1 h2 h3 h4
  subst h1 h2 h3 h4
  rfl

/-- The window coordinate on the column axis is the update's column. -/
private theorem rows_window1 (j : (⟨2, ![E, D]⟩ : Shape).Idx) : d.window j 1 = (j 1).val := by
  obtain ⟨uw, iw, sd, iv, wf⟩ := d
  simp only at h1 h2 h3 h4
  subst h1 h2 h3 h4
  rfl

/-- Update `j` lands on entry `(p, q)` exactly when word `j 0`, read signed, is `p` and its column is `q`. -/
private theorem rows_lands (idx : (⟨2, ![E, 1]⟩ : Shape).Idx → BitVec 32) (j : (⟨2, ![E, D]⟩ : Shape).Idx)
    (p : Fin N) (q : Fin D) :
    d.resultIdx? j idx = some (ix2 p q) ↔ (idx (ix2 (j 0) 0)).toInt = (p.val : Int) ∧ j 1 = q := by
  rw [resultIdx?_eq_some_iff]
  constructor
  · intro h
    have h0 := h 0
    have hc := h 1
    rw [rows_start0 d h1 h2 h3 h4, rows_window0 d h1 h2 h3 h4, Nat.cast_zero, add_zero] at h0
    rw [rows_start1 d h1 h2 h3 h4, rows_window1 d h1 h2 h3 h4, zero_add] at hc
    exact ⟨h0, Fin.ext (Int.ofNat_inj.mp hc)⟩
  · rintro ⟨h0, hq⟩
    have f0 : d.start j idx 0 + (d.window j 0 : Int) = (p.val : Int) := by
      rw [rows_start0 d h1 h2 h3 h4, rows_window0 d h1 h2 h3 h4, Nat.cast_zero, add_zero]
      exact h0
    have f1 : d.start j idx 1 + (d.window j 1 : Int) = (q.val : Int) := by
      rw [rows_start1 d h1 h2 h3 h4, rows_window1 d h1 h2 h3 h4, zero_add, hq]
    intro a
    match a with
    | ⟨0, _⟩ => exact f0
    | ⟨1, _⟩ => exact f1

end Rows

/-- Accumulating E rows of D entries into an N x D matrix: entry (p, q) is what it was plus entry q of the rows
    whose word is p. -/
theorem scatterAdd_rows {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : (⟨2, ![E, 1]⟩ : Shape).Idx → BitVec 32)
    (upd : (⟨2, ![E, D]⟩ : Shape).Idx → EReal) (p : Fin N) (q : Fin D) :
    Ideal.hostScatterAdd d x idx upd (ix2 p q)
      = x (ix2 p q) + ∑ e ∈ Finset.univ.filter (fun e : Fin E => (idx (ix2 e 0)).toInt = (p.val : Int)), upd (ix2 e q) := by
  unfold Ideal.hostScatterAdd
  congr 1
  -- the update indices that land in column q are the rows' positions, at column q
  refine Finset.sum_nbij' (fun j => j 0) (fun e => ix2 e q) ?_ ?_ ?_ ?_ ?_
  · intro j hj
    exact Finset.mem_filter.mpr ⟨Finset.mem_univ _, ((rows_lands d h1 h2 h3 h4 idx j p q).mp (Finset.mem_filter.mp hj).2).1⟩
  · intro e he
    exact Finset.mem_filter.mpr ⟨Finset.mem_univ _, (rows_lands d h1 h2 h3 h4 idx (ix2 e q) p q).mpr ⟨(Finset.mem_filter.mp he).2, rfl⟩⟩
  · intro j hj
    have hq := ((rows_lands d h1 h2 h3 h4 idx j p q).mp (Finset.mem_filter.mp hj).2).2
    exact (congrArg (ix2 (j 0)) hq.symm).trans (eq_ix2 j).symm
  · intro e _
    rfl
  · intro j hj
    have hq := ((rows_lands d h1 h2 h3 h4 idx j p q).mp (Finset.mem_filter.mp hj).2).2
    exact congrArg upd ((eq_ix2 j).trans (congrArg (ix2 (j 0)) hq))

section Gather
variable {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
include h1 h2 h3 h4 h5 h6 h7

/-- The slice's start on the row axis is word `j 0`, read signed and clamped into `[0, N - 1]`. -/
private theorem gather_start0 (idx : (⟨2, ![E, 1]⟩ : Shape).Idx → BitVec 32) (j : (⟨2, ![E, D]⟩ : Shape).Idx) :
    d.start j idx 0 = min (idx (ix2 (j 0) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl

/-- The column axis is not in the start index map: its start is 0. -/
private theorem gather_start1 (idx : (⟨2, ![E, 1]⟩ : Shape).Idx → BitVec 32) (j : (⟨2, ![E, D]⟩ : Shape).Idx) :
    d.start j idx 1 = 0 := by
  obtain ⟨od, cd, ob, sb, sm, iv, ss, wf⟩ := d
  simp only at h1 h2 h3 h4 h5 h6 h7
  subst h1 h2 h3 h4 h5 h6 h7
  rfl

/-- No batching axes: no batching coordinate. -/
private theorem gather_batch (j : (⟨2, ![E, D]⟩ : Shape).Idx) (a : Fin 2) : d.batchCoord j a = 0 :=
  d.batchCoord_eq_zero j a (by rw [h3]; exact List.not_mem_nil)

/-- The row axis is collapsed: no offset coordinate. -/
private theorem gather_off0 (j : (⟨2, ![E, D]⟩ : Shape).Idx) : d.offCoord j 0 = 0 := by
  obtain ⟨od, cd, ob, sb, sm, iv, ss, wf⟩ := d
  simp only at h1 h2 h3 h4 h5 h6 h7
  subst h1 h2 h3 h4 h5 h6 h7
  rfl

/-- The offset coordinate on the column axis is the result's column. -/
private theorem gather_off1 (j : (⟨2, ![E, D]⟩ : Shape).Idx) : d.offCoord j 1 = (j 1).val := by
  obtain ⟨od, cd, ob, sb, sm, iv, ss, wf⟩ := d
  simp only at h1 h2 h3 h4 h5 h6 h7
  subst h1 h2 h3 h4 h5 h6 h7
  rfl

end Gather

/-- Gathering E rows out of an N x D matrix: row e is the operand's row n when word e, read signed, is n. -/
theorem gather_rows {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (n : Fin N) (hn : (idx (ix2 e 0)).toInt = (n.val : Int)) :
    Host.gather d x idx (ix2 e q) = x (ix2 n q) := by
  -- row axis: the clamped start is n (n is a row of the operand), nothing else is added
  have f0 : d.start (ix2 e q) idx 0 + d.batchCoord (ix2 e q) 0 + d.offCoord (ix2 e q) 0 = n.val := by
    rw [gather_start0 d h1 h2 h3 h4 h5 h6 h7, gather_batch d h1 h2 h3 h4 h5 h6 h7, gather_off0 d h1 h2 h3 h4 h5 h6 h7]
    show min (idx (ix2 e 0)).toInt.toNat (N - 1) + 0 + 0 = n.val
    rw [hn, Int.toNat_natCast]
    have := n.isLt
    omega
  -- column axis: the start is 0 and the offset coordinate is q
  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

end Cert.Sage.IndexRead

end
-- ==== Proof.Bridge.lean ====
/-
  The network's program, value by value, is the reference's.

  Each kernel region's output array is a layer function of the arrays the region found (the value modules): rows times
  weights for the three projections, a row added to every row (and clipped below at zero) for the three bias passes, the
  sum of the rows of each graph for the pooling. Each layer function is the reference's stage of the same place: the
  host's product is that sum over the contracted axis; adding the bias broadcast along the rows, then the maximum with
  a zero array, is the row added and clipped; the host's accumulating scatter of the rows at their graph numbers sums,
  into graph g, exactly the rows whose number is g (a number outside 0..255 lands nowhere on either side). The host
  stretches between the regions are the reference's own operations (the stage module). So the result buffer ends at
  the reference's last stage of the arguments.
-/
import proofs.«404714_j59846074303063_2_alg».proof.Proof.Stages
import proofs.«404714_j59846074303063_2_alg».proof.Proof.Proj0
import proofs.«404714_j59846074303063_2_alg».proof.Proof.Proj2
import proofs.«404714_j59846074303063_2_alg».proof.Proof.Proj4
import proofs.«404714_j59846074303063_2_alg».proof.Proof.Bias1
import proofs.«404714_j59846074303063_2_alg».proof.Proof.Bias3
import proofs.«404714_j59846074303063_2_alg».proof.Proof.Bias5
import proofs.«404714_j59846074303063_2_alg».proof.Proof.Pool6
import proofs.«404714_j59846074303063_2_alg».proof.Proof.LibIndexRead
import Idealize.ShloMosaic.Lib.ValueLayout
import Idealize.ShloMosaic.PureOps.Ideal.Laws

noncomputable section

open Idealize.ShloMosaic Idealize.ShloMosaic.TcCoe Idealize.SL.Sem Idealize.ShloMosaic.StableHlo Idealize.ShloMosaic.ValueIdx

namespace Cert.Bridge

open Cert.KernelIdeal Cert.KernelIdeal.Gen Cert.ReferenceIdeal.Read Cert.Gcn Cert.Stages Cert.KernelIdeal.Value

/-! ## The layer functions are the reference's stages -/

/-- The first projection: the host's product of the node rows and the first weight matrix. -/
theorem proj_v29 (x0 : (⟨Cert.ReferenceIdeal.S100000x128, .f32⟩ : BufTy).Contents (Elt Ideal)) (x3 : (⟨Cert.ReferenceIdeal.S128x64, .f32⟩ : BufTy).Contents (Elt Ideal)) :
    rowsTimes (n := 100000) (k := 128) (d := 64) x0 x3 = val_main_v29 (F := Ideal) x0 x3 := by
  funext i
  rw [val_main_v29_apply]
  refine Finset.sum_congr rfl fun k _ => ?_
  have el : ix2 (i 0) k = lidx_main_v29 i k := funext fun a => by match a with | ⟨0, _⟩ => rfl | ⟨1, _⟩ => rfl
  have er : ix2 k (i 1) = ridx_main_v29 i k := funext fun a => by match a with | ⟨0, _⟩ => rfl | ⟨1, _⟩ => rfl
  exact congrArg₂ (fun a b : EReal => a * b) (congrArg x0 el) (congrArg x3 er)

/-- The second projection. -/
theorem proj_v47 (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) :
    rowsTimes (n := 100000) (k := 64) (d := 64) (val_main_v46 (F := Ideal) x0 x1 x3 x4) x5 = val_main_v47 (F := Ideal) x0 x1 x3 x4 x5 := by
  funext i
  rw [val_main_v47_apply]
  refine Finset.sum_congr rfl fun k _ => ?_
  have el : ix2 (i 0) k = lidx_main_v47 i k := funext fun a => by match a with | ⟨0, _⟩ => rfl | ⟨1, _⟩ => rfl
  have er : ix2 k (i 1) = ridx_main_v47 i k := funext fun a => by match a with | ⟨0, _⟩ => rfl | ⟨1, _⟩ => rfl
  exact congrArg₂ (fun a b : EReal => a * b) (congrArg (val_main_v46 (F := Ideal) x0 x1 x3 x4) el) (congrArg x5 er)

/-- The third projection. -/
theorem proj_v65 (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x32, .f32⟩ : BufTy).Contents (Elt Ideal)) :
    rowsTimes (n := 100000) (k := 64) (d := 32) (val_main_v64 (F := Ideal) x0 x1 x3 x4 x5 x6) x7 = val_main_v65 (F := Ideal) x0 x1 x3 x4 x5 x6 x7 := by
  funext i
  rw [val_main_v65_apply]
  refine Finset.sum_congr rfl fun k _ => ?_
  have el : ix2 (i 0) k = lidx_main_v65 i k := funext fun a => by match a with | ⟨0, _⟩ => rfl | ⟨1, _⟩ => rfl
  have er : ix2 k (i 1) = ridx_main_v65 i k := funext fun a => by match a with | ⟨0, _⟩ => rfl | ⟨1, _⟩ => rfl
  exact congrArg₂ (fun a b : EReal => a * b) (congrArg (val_main_v64 (F := Ideal) x0 x1 x3 x4 x5 x6) el) (congrArg x7 er)

/-- The first bias pass: the bias, reshaped to one row on the kernel's side and broadcast along the rows on the
    reference's, reads at column q either way; the reference's maximum is against a zero array. -/
theorem bias_v46 (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) :
    addRowRelu (n := 100000) (d := 64) (val_main_v42 (F := Ideal) x0 x1 x3) (shapeCast S1x64 x4 shapeCasts_S64_S1x64)
      = val_main_v46 (F := Ideal) x0 x1 x3 x4 := by
  funext i
  rw [val_main_v46_apply, val_main_v45_apply, val_main_v44_apply, val_main_v43_apply, val_main_call0_v0_apply, val_main_call0_cst_apply]
  have eb : shapeCast S1x64 x4 shapeCasts_S64_S1x64 (ix2 0 (i 1)) = x4 (idx_main_v43 (idx_main_v44 i)) :=
    (shapeCast_a_1a_apply x4 shapeCasts_S64_S1x64 0 (i 1)).trans
      (congrArg x4 (funext fun a => by match a with | ⟨0, _⟩ => rfl))
  show max (val_main_v42 (F := Ideal) x0 x1 x3 i + shapeCast S1x64 x4 shapeCasts_S64_S1x64 (ix2 0 (i 1))) 0 = _
  rw [eb]
  simp only [Ideal.maximumf_def, Ideal.addf_def, Ideal.ofBits_def, Ideal.ofBits_zero_f32]

/-- The second bias pass. -/
theorem bias_v64 (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) :
    addRowRelu (n := 100000) (d := 64) (val_main_v60 (F := Ideal) x0 x1 x3 x4 x5) (shapeCast S1x64 x6 shapeCasts_S64_S1x64)
      = val_main_v64 (F := Ideal) x0 x1 x3 x4 x5 x6 := by
  funext i
  rw [val_main_v64_apply, val_main_v63_apply, val_main_v62_apply, val_main_v61_apply, val_main_call1_v0_apply, val_main_call1_cst_apply]
  have eb : shapeCast S1x64 x6 shapeCasts_S64_S1x64 (ix2 0 (i 1)) = x6 (idx_main_v61 (idx_main_v62 i)) :=
    (shapeCast_a_1a_apply x6 shapeCasts_S64_S1x64 0 (i 1)).trans
      (congrArg x6 (funext fun a => by match a with | ⟨0, _⟩ => rfl))
  show max (val_main_v60 (F := Ideal) x0 x1 x3 x4 x5 i + shapeCast S1x64 x6 shapeCasts_S64_S1x64 (ix2 0 (i 1))) 0 = _
  rw [eb]
  simp only [Ideal.maximumf_def, Ideal.addf_def, Ideal.ofBits_def, Ideal.ofBits_zero_f32]

/-- The third bias pass (no clipping). -/
theorem bias_v81 (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x32, .f32⟩ : BufTy).Contents (Elt Ideal)) (x8 : (⟨Cert.ReferenceIdeal.S32, .f32⟩ : BufTy).Contents (Elt Ideal)) :
    addRow (n := 100000) (d := 32) (val_main_v78 (F := Ideal) x0 x1 x3 x4 x5 x6 x7) (shapeCast S1x32 x8 shapeCasts_S32_S1x32)
      = val_main_v81 (F := Ideal) x0 x1 x3 x4 x5 x6 x7 x8 := by
  funext i
  rw [val_main_v81_apply, val_main_v80_apply, val_main_v79_apply]
  have eb : shapeCast S1x32 x8 shapeCasts_S32_S1x32 (ix2 0 (i 1)) = x8 (idx_main_v79 (idx_main_v80 i)) :=
    (shapeCast_a_1a_apply x8 shapeCasts_S32_S1x32 0 (i 1)).trans
      (congrArg x8 (funext fun a => by match a with | ⟨0, _⟩ => rfl))
  show val_main_v78 (F := Ideal) x0 x1 x3 x4 x5 x6 x7 i + shapeCast S1x32 x8 shapeCasts_S32_S1x32 (ix2 0 (i 1)) = _
  rw [eb]
  simp only [Ideal.addf_def]

/-- A word read signed is the number p below 256 exactly when it is the word of p. -/
theorem toInt_eq_iff (w : BitVec 32) (p : Fin 256) : w.toInt = (p.val : Int) ↔ w = BitVec.ofNat 32 p.val := by
  have hp := p.isLt
  have hw := w.isLt
  rw [BitVec.toInt_eq_toNat_cond]
  constructor
  · intro h
    apply BitVec.eq_of_toNat_eq
    rw [BitVec.toNat_ofNat]
    split at h <;> omega
  · intro h
    subst h
    rw [BitVec.toNat_ofNat]
    split <;> omega

/-- The nodes' graph numbers as a one-column matrix read, at row t, the number of node t. -/
theorem seg_col_apply (x2 : (⟨Cert.ReferenceIdeal.S100000, .i32⟩ : BufTy).Contents (Elt Ideal)) (t : Fin 100000) :
    shapeCast S100000x1 x2 shapeCasts_S100000_S100000x1 (ix2 t 0) = x2 (ix1 t) :=
  shapeCast_apply x2 shapeCasts_S100000_S100000x1 _ _ (by
    rw [Shape.rowMajor_val_two, Shape.rowMajor_val_one]
    show t.val = t.val * 1 + 0
    omega)

/-- The pooling: the host's accumulating scatter of the third layer's rows at their graph numbers, from a zero array,
    sums into graph g the rows whose number is g. -/
theorem pool_v84 (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S100000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x32, .f32⟩ : BufTy).Contents (Elt Ideal)) (x8 : (⟨Cert.ReferenceIdeal.S32, .f32⟩ : BufTy).Contents (Elt Ideal)) :
    segSum (n := 100000) (g := 256) (d := 32) (val_main_v81 (F := Ideal) x0 x1 x3 x4 x5 x6 x7 x8) (shapeCast S100000x1 x2 shapeCasts_S100000_S100000x1)
      = val_main_v84 (F := Ideal) x0 x1 x2 x3 x4 x5 x6 x7 x8 := by
  funext i
  obtain ⟨p, q, rfl⟩ : ∃ (p : Fin 256) (q : Fin 32), i = ix2 p q := ⟨i 0, i 1, eq_ix2 i⟩
  unfold val_main_v84
  simp only [Host.scatterAdd, Ideal.hostScatterAdd_def]
  rw [Cert.Sage.IndexRead.scatterAdd_rows _ rfl rfl rfl rfl]
  rw [val_main_v82_apply, val_main_cst_14_apply, Finset.sum_filter]
  simp only [Ideal.ofBits_def, Ideal.ofBits_zero_f32, zero_add]
  refine Finset.sum_congr rfl fun t _ => ?_
  rw [seg_col_apply x2 t]
  have e83 : val_main_v83 (F := Ideal) x2 (ix2 t 0) = x2 (ix1 t) :=
    (val_main_v83_apply x2 (ix2 t 0)).trans (congrArg x2 (funext fun a => by match a with | ⟨0, _⟩ => rfl))
  rw [e83]
  exact if_congr (toInt_eq_iff (x2 (ix1 t)) p).symm rfl rfl

/-! ## The run's boundaries, value by value -/

variable (m : (ℓ : Loc nD τ sig) → Buf (Elt Ideal) ℓ) (ρ : Dev nD → PrngReg) (c : Dev nD)

/-- After region 0: the first projection. -/
theorem W2_v29 : W2 m ρ c (Proc.devRef .tc main_v29) = val_main_v29 (F := Ideal) (m ((c : Thread nD τ).loc main_arg0)) (m ((c : Thread nD τ).loc main_arg3)) :=
  (W2_arr m ρ c 2).trans ((proj0_value (V1 m ρ) c).trans (by
    show rowsTimes (n := 100000) (k := 128) (d := 64) (W1 m ρ c (Proc.devRef .tc main_arg0)) (W1 m ρ c (Proc.devRef .tc main_arg3)) = _
    rw [W1_arg0 m ρ c, W1_arg3 m ρ c]
    exact proj_v29 _ _))

/-- The first aggregation. -/
theorem W3_v42_eq : W3 m ρ c (Proc.devRef .tc main_v42) = val_main_v42 (F := Ideal) (m ((c : Thread nD τ).loc main_arg0)) (m ((c : Thread nD τ).loc main_arg1)) (m ((c : Thread nD τ).loc main_arg3)) := by
  rw [W3_v42 m ρ c, W2_v29 m ρ c, ← val_main_v42_eq]

/-- After region 1: the first layer's rows. -/
theorem W4_v44 : W4 m ρ c (Proc.devRef .tc main_v44) = val_main_v46 (F := Ideal) (m ((c : Thread nD τ).loc main_arg0)) (m ((c : Thread nD τ).loc main_arg1)) (m ((c : Thread nD τ).loc main_arg3)) (m ((c : Thread nD τ).loc main_arg4)) :=
  (W4_arr m ρ c 2).trans ((bias1_value (V3 m ρ) c).trans (by
    show addRowRelu (n := 100000) (d := 64) (W3 m ρ c (Proc.devRef .tc main_v42)) (W3 m ρ c (Proc.devRef .tc main_v43)) = _
    rw [W3_v42_eq m ρ c, W3_v43 m ρ c]
    exact bias_v46 _ _ _ _))

/-- After region 2: the second projection. -/
theorem W5_v45 : W5 m ρ c (Proc.devRef .tc main_v45) = val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W5_arr m ρ c 2).trans ((proj2_value (V4 m ρ) c).trans (by
    show rowsTimes (n := 100000) (k := 64) (d := 64) (W4 m ρ c (Proc.devRef .tc main_v44)) (W4 m ρ c (Proc.devRef .tc main_arg5)) = _
    rw [W4_v44 m ρ c, W4_arg5 m ρ c]
    exact proj_v47 _ _ _ _ _))

/-- The second aggregation. -/
theorem W6_v58_eq : W6 m ρ c (Proc.devRef .tc main_v58) = val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [W6_v58 m ρ c, W5_v45 m ρ c, ← val_main_v60_eq]

/-- After region 3: the second layer's rows. -/
theorem W7_v60 : W7 m ρ c (Proc.devRef .tc main_v60) = val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W7_arr m ρ c 2).trans ((bias3_value (V6 m ρ) c).trans (by
    show addRowRelu (n := 100000) (d := 64) (W6 m ρ c (Proc.devRef .tc main_v58)) (W6 m ρ c (Proc.devRef .tc main_v59)) = _
    rw [W6_v58_eq m ρ c, W6_v59 m ρ c]
    exact bias_v64 _ _ _ _ _ _))

/-- After region 4: the third projection. -/
theorem W8_v61 : W8 m ρ c (Proc.devRef .tc main_v61) = val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 2).trans ((proj4_value (V7 m ρ) c).trans (by
    show rowsTimes (n := 100000) (k := 64) (d := 32) (W7 m ρ c (Proc.devRef .tc main_v60)) (W7 m ρ c (Proc.devRef .tc main_arg7)) = _
    rw [W7_v60 m ρ c, W7_arg7 m ρ c]
    exact proj_v65 _ _ _ _ _ _ _))

/-- The third aggregation. -/
theorem W9_v74_eq : W9 m ρ c (Proc.devRef .tc main_v74) = val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W9_v74 m ρ c, W8_v61 m ρ c, ← val_main_v78_eq]

/-- After region 5: the third layer's rows. -/
theorem W10_v76 : W10 m ρ c (Proc.devRef .tc main_v76) = val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W10_arr m ρ c 2).trans ((bias5_value (V9 m ρ) c).trans (by
    show addRow (n := 100000) (d := 32) (W9 m ρ c (Proc.devRef .tc main_v74)) (W9 m ρ c (Proc.devRef .tc main_v75)) = _
    rw [W9_v74_eq m ρ c, W9_v75 m ρ c]
    exact bias_v81 _ _ _ _ _ _ _ _))

/-- After region 6: every graph's row sum. -/
theorem W12_v78 : W12 m ρ c (Proc.devRef .tc main_v78) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W12_arr m ρ c 2).trans ((pool6_value (V11 m ρ) c).trans (by
    show segSum (n := 100000) (g := 256) (d := 32) (W11 m ρ c (Proc.devRef .tc main_v76)) (W11 m ρ c (Proc.devRef .tc main_v77)) = _
    rw [W11_v76 m ρ c, W10_v76 m ρ c, W11_v77 m ρ c]
    exact pool_v84 _ _ _ _ _ _ _ _ _))

/-- The result buffer ends at the reference's last stage of the arguments. -/
theorem result_eq : W13 m ρ c (Proc.devRef .tc main_v87) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W13_v87 m ρ c, W12_v78 m ρ c]
  rfl

end Cert.Bridge

end
-- ==== Proof.lean ====
/-
  A three-layer graph convolution network with mean pooling, as seven kernel regions among host stretches, against its
  jnp reference, over the extended reals.

  Each layer projects the node rows by a weight matrix (a kernel region: blocks of 10000 rows times the whole weight
  matrix), gathers the projected row of every edge's source, scales it by the edge's symmetric normalisation weight and
  sums it into the edge's target (host operations, the same in both programs), and adds the layer's bias, clipping
  below at zero after the first two layers (a kernel region). The pooling sums the rows of every graph — in the kernel
  as the product of the transposed one-hot matrix of the nodes' graph numbers with the rows, accumulated over the
  ten row blocks from a zero block; in the reference as an accumulating scatter — and both divide by the graphs' node
  counts clipped below at one. At the ideal instance a change of float format is the identity, a matrix unit's
  product into a zero accumulator and the host's product are the same sum, zero times anything is zero, and sums
  may be re-associated: so the one-hot product is the scatter's sum and the two programs end with the same array. No
  finiteness of the inputs is used; a graph number outside 0..255 contributes to no graph in either program.

  The three frames are the generated frames (the reference's its generated run with the result dropped), the
  idealization rewrote nothing, and the result buffer's contents after the kernel's run are read beside the arguments
  by the launch theorem over the generated segments (the result module), then identified with the reference's last
  stage (the bridge module).
-/
import proofs.«404714_j59846074303063_2_alg».proof.Defs
import proofs.«404714_j59846074303063_2_alg».proof.Proof.Gen.Kernel
import proofs.«404714_j59846074303063_2_alg».proof.Proof.Gen.Kernel.Frame
import proofs.«404714_j59846074303063_2_alg».proof.Proof.Gen.KernelIdeal
import proofs.«404714_j59846074303063_2_alg».proof.Proof.Gen.KernelIdeal.Frame
import proofs.«404714_j59846074303063_2_alg».proof.Proof.Gen.ReferenceIdeal
import proofs.«404714_j59846074303063_2_alg».proof.Proof.Gen.ReferenceIdeal.Run
import proofs.«404714_j59846074303063_2_alg».proof.Proof.Gen.ReferenceIdeal.Read
import proofs.«404714_j59846074303063_2_alg».proof.Proof.Gen.Pre_finite_inputs
import proofs.«404714_j59846074303063_2_alg».proof.Proof.RunResult
import proofs.«404714_j59846074303063_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments the kernel's result buffer ends at the last boundary's contents, which are
    the reference's last stage of the arguments, and the reference's run ends at that stage of its own, equal,
    arguments. -/
theorem algebraic : Cert.algebraic_KernelIdeal_ReferenceIdeal := by
  intro m ρ m' ρ' _ hagree
  refine ⟨fun c => Cert.KernelIdeal.Gen.W13 m ρ c (Proc.devRef .tc Cert.KernelIdeal.main_v87),
    Cert.KernelIdeal.RunResult.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v93_eq, e0, e1, e2, e3, e4, e5, e6, e7, e8]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
